-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x3 : Shape := ⟨3, ![8, 1, 3]⟩
abbrev S8x3 : Shape := ⟨2, ![8, 3]⟩
abbrev S8x4096x1 : Shape := ⟨3, ![8, 4096, 1]⟩
abbrev S1x4096x3 : Shape := ⟨3, ![1, 4096, 3]⟩
abbrev S1x3x4096 : Shape := ⟨3, ![1, 3, 4096]⟩
abbrev S1x1x3 : Shape := ⟨3, ![1, 1, 3]⟩
abbrev S1x4096x1 : Shape := ⟨3, ![1, 4096, 1]⟩
abbrev S4096x3 : Shape := ⟨2, ![4096, 3]⟩
abbrev S3x4096 : Shape := ⟨2, ![3, 4096]⟩
abbrev S1x3 : Shape := ⟨2, ![1, 3]⟩
abbrev S128x128 : Shape := ⟨2, ![128, 128]⟩
abbrev S4096x1 : Shape := ⟨2, ![4096, 1]⟩
abbrev S3x128 : Shape := ⟨2, ![3, 128]⟩
abbrev S1x128 : Shape := ⟨2, ![1, 128]⟩
abbrev S4096x128 : Shape := ⟨2, ![4096, 128]⟩
abbrev S4096 : Shape := ⟨1, ![4096]⟩
abbrev S8x4096 : Shape := ⟨2, ![8, 4096]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x1x3, .f32⟩
  | .hbm, ⟨4, _⟩ => ⟨S8x3, .f32⟩
  | .hbm, ⟨5, _⟩ => ⟨S8x1x3, .f32⟩
  | .hbm, ⟨6, _⟩ => ⟨S8x4096x1, .f32⟩
  | .hbm, ⟨7, _⟩ => ⟨S8x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x3, .f32⟩
  | .local _ .vmem, ⟨5, _⟩ => ⟨S1x1x3, .f32⟩
  | .local _ .vmem, ⟨6, _⟩ => ⟨S1x4096x1, .f32⟩
  | .local _ .vmem, ⟨7, _⟩ => ⟨S1x4096x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x4096x3_S8x3x4096_0_2_1 : S8x4096x3.Transposes [0, 2, 1] S8x3x4096
  slices_S8x4096x3_S8x1x3_0_4095_0 : S8x4096x3.Slices ![0, 4095, 0] S8x1x3
  shapeCasts_S8x1x3_S8x3 : S8x1x3.ShapeCasts S8x3
  bcast_S8x3_S8x1x3_0_2 : S8x3.BroadcastsInDim S8x1x3 (![0, 2] : Fin 2 → Fin S8x1x3.rank)
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  iota_S128x128_d0_w32 : S128x128.Iotas .tc 32 [0]
  iota_S128x128_d1_w32 : S128x128.Iotas .tc 32 [1]
  natLt_1_32 : 1 < 32
  bitsLt_bf16_f32 : FTy.bits .bf16 < FTy.bits .f32
  slices_S3x4096_o0_0_S3x128 : S3x4096.Slices ![0, 0] S3x128
  slices_S4096x3_o0_0_S4096x1 : S4096x3.Slices ![0, 0] S4096x1
  slices_S3x128_o0_0_S1x128 : S3x128.Slices ![0, 0] S1x128
  broadcasts_S4096x1_S4096x128 : S4096x1.Broadcasts S4096x128
  broadcasts_S1x128_S4096x128 : S1x128.Broadcasts S4096x128
  slices_S4096x3_o0_1_S4096x1 : S4096x3.Slices ![0, 1] S4096x1
  slices_S3x128_o1_0_S1x128 : S3x128.Slices ![1, 0] S1x128
  slices_S4096x3_o0_2_S4096x1 : S4096x3.Slices ![0, 2] S4096x1
  slices_S3x128_o2_0_S1x128 : S3x128.Slices ![2, 0] S1x128
  slices_S4096x128_o0_127_S4096x1 : S4096x128.Slices ![0, 127] S4096x1
  slices_S3x4096_o0_128_S3x128 : S3x4096.Slices ![0, 128] S3x128
  slices_S3x4096_o0_256_S3x128 : S3x4096.Slices ![0, 256] S3x128
  slices_S3x4096_o0_384_S3x128 : S3x4096.Slices ![0, 384] S3x128
  slices_S3x4096_o0_512_S3x128 : S3x4096.Slices ![0, 512] S3x128
  slices_S3x4096_o0_640_S3x128 : S3x4096.Slices ![0, 640] S3x128
  slices_S3x4096_o0_768_S3x128 : S3x4096.Slices ![0, 768] S3x128
  slices_S3x4096_o0_896_S3x128 : S3x4096.Slices ![0, 896] S3x128
  slices_S3x4096_o0_1024_S3x128 : S3x4096.Slices ![0, 1024] S3x128
  slices_S3x4096_o0_1152_S3x128 : S3x4096.Slices ![0, 1152] S3x128
  slices_S3x4096_o0_1280_S3x128 : S3x4096.Slices ![0, 1280] S3x128
  slices_S3x4096_o0_1408_S3x128 : S3x4096.Slices ![0, 1408] S3x128
  slices_S3x4096_o0_1536_S3x128 : S3x4096.Slices ![0, 1536] S3x128
  slices_S3x4096_o0_1664_S3x128 : S3x4096.Slices ![0, 1664] S3x128
  slices_S3x4096_o0_1792_S3x128 : S3x4096.Slices ![0, 1792] S3x128
  slices_S3x4096_o0_1920_S3x128 : S3x4096.Slices ![0, 1920] S3x128
  slices_S3x4096_o0_2048_S3x128 : S3x4096.Slices ![0, 2048] S3x128
  slices_S3x4096_o0_2176_S3x128 : S3x4096.Slices ![0, 2176] S3x128
  slices_S3x4096_o0_2304_S3x128 : S3x4096.Slices ![0, 2304] S3x128
  slices_S3x4096_o0_2432_S3x128 : S3x4096.Slices ![0, 2432] S3x128
  slices_S3x4096_o0_2560_S3x128 : S3x4096.Slices ![0, 2560] S3x128
  slices_S3x4096_o0_2688_S3x128 : S3x4096.Slices ![0, 2688] S3x128
  slices_S3x4096_o0_2816_S3x128 : S3x4096.Slices ![0, 2816] S3x128
  slices_S3x4096_o0_2944_S3x128 : S3x4096.Slices ![0, 2944] S3x128
  slices_S3x4096_o0_3072_S3x128 : S3x4096.Slices ![0, 3072] S3x128
  slices_S3x4096_o0_3200_S3x128 : S3x4096.Slices ![0, 3200] S3x128
  slices_S3x4096_o0_3328_S3x128 : S3x4096.Slices ![0, 3328] S3x128
  slices_S3x4096_o0_3456_S3x128 : S3x4096.Slices ![0, 3456] S3x128
  slices_S3x4096_o0_3584_S3x128 : S3x4096.Slices ![0, 3584] S3x128
  slices_S3x4096_o0_3712_S3x128 : S3x4096.Slices ![0, 3712] S3x128
  slices_S3x4096_o0_3840_S3x128 : S3x4096.Slices ![0, 3840] S3x128
  slices_S3x4096_o0_3968_S3x128 : S3x4096.Slices ![0, 3968] S3x128
  shapeCasts_S1x3_S1x3 : S1x3.ShapeCasts S1x3
  broadcasts_S1x3_S4096x3 : S1x3.Broadcasts S4096x3
  broadcasts_S4096x1_S4096x3 : S4096x1.Broadcasts S4096x3
  reduces_S4096x3_S4096 : S4096x3.Reduces [1] S4096
  shapeCasts_S4096_S4096x1 : S4096.ShapeCasts S4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  shapeCasts_S8x4096x1_S8x4096 : S8x4096x1.ShapeCasts S8x4096
  reducesTo_S8x4096_S_d0_1 : S8x4096.ReducesTo [0, 1] S_
  h_S_ : 0 < S_.numel
  dot_S4096x128_S128x128_S4096x128_1_0_0_1_n_n_wf : DotDims.WF S4096x128 S128x128 S4096x128 [1] [0] [0] [1] [] []
  dot_S4096x128_S3x128_S4096x3_1_1_0_0_n_n_wf : DotDims.WF S4096x128 S3x128 S4096x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3.size a ≤ S8x1x3.size a
  hwx0_2 : ∀ i : grid0.Coords, EltTy.bits .f32 = 32 ∨ (Rect.block (s := S8x1x3) S1x1x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S8x4096x1.size a
  hwx0_3 : ∀ i : grid0.Coords, EltTy.bits .f32 = 32 ∨ (Rect.block (s := S8x4096x1) S1x4096x1.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S3x128_S4096x3_1_1_0_0_n_n : DotDims S4096x128 S3x128 S4096x3 where
  lhsContracting := [1]
  rhsContracting := [1]
  lhsNonContracting := [0]
  rhsNonContracting := [0]
  lhsBatch := []
  rhsBatch := []
  wf := dot_S4096x128_S3x128_S4096x3_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096 : Shape := ⟨1, ![4096]⟩
abbrev S8x4096x16 : Shape := ⟨3, ![8, 4096, 16]⟩
abbrev S8 : Shape := ⟨1, ![8]⟩
abbrev S8x1x1 : Shape := ⟨3, ![8, 1, 1]⟩
abbrev S8x4096x16x1 : Shape := ⟨4, ![8, 4096, 16, 1]⟩
abbrev S8x4096x16x2 : Shape := ⟨4, ![8, 4096, 16, 2]⟩
abbrev S8x4096x16x3 : Shape := ⟨4, ![8, 4096, 16, 3]⟩
abbrev S8x4096x1x3 : Shape := ⟨4, ![8, 4096, 1, 3]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x1x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S8x4096x4096, .i32⟩
  | .hbm, ⟨20, _⟩ => ⟨S_, .f32⟩
  | .hbm, ⟨21, _⟩ => ⟨S8x4096x4096, .f32⟩
  | .hbm, ⟨22, _⟩ => ⟨S8x4096x4096, .i1⟩
  | .hbm, ⟨23, _⟩ => ⟨S_, .i32⟩
  | .hbm, ⟨24, _⟩ => ⟨S_, .i32⟩
  | .hbm, ⟨25, _⟩ => ⟨S8x4096x4096, .i32⟩
  | .hbm, ⟨26, _⟩ => ⟨S8x4096x4096, .i32⟩
  | .hbm, ⟨27, _⟩ => ⟨S8x4096x4096, .i32⟩
  | .hbm, ⟨28, _⟩ => ⟨S8x4096x16, .i32⟩
  | .hbm, ⟨29, _⟩ => ⟨S8x4096x1, .i32⟩
  | .hbm, ⟨30, _⟩ => ⟨S_, .i32⟩
  | .hbm, ⟨31, _⟩ => ⟨S8x4096x16, .i32⟩
  | .hbm, ⟨32, _⟩ => ⟨S8x4096x16, .i1⟩
  | .hbm, ⟨33, _⟩ => ⟨S8x4096x16, .i32⟩
  | .hbm, ⟨34, _⟩ => ⟨S8x4096x16, .i32⟩
  | .hbm, ⟨35, _⟩ => ⟨S_, .i32⟩
  | .hbm, ⟨36, _⟩ => ⟨S8x4096x16, .i32⟩
  | .hbm, ⟨37, _⟩ => ⟨S8x4096x16, .i32⟩
  | .hbm, ⟨38, _⟩ => ⟨S8, .i32⟩
  | .hbm, ⟨39, _⟩ => ⟨S8x1x1, .i32⟩
  | .hbm, ⟨40, _⟩ => ⟨S_, .i32⟩
  | .hbm, ⟨41, _⟩ => ⟨S8x1x1, .i32⟩
  | .hbm, ⟨42, _⟩ => ⟨S8x1x1, .i1⟩
  | .hbm, ⟨43, _⟩ => ⟨S_, .i32⟩
  | .hbm, ⟨44, _⟩ => ⟨S8x1x1, .i32⟩
  | .hbm, ⟨45, _⟩ => ⟨S8x1x1, .i32⟩
  | .hbm, ⟨46, _⟩ => ⟨S8x1x1, .i32⟩
  | .hbm, ⟨47, _⟩ => ⟨S_, .i32⟩
  | .hbm, ⟨48, _⟩ => ⟨S8x4096x16, .i32⟩
  | .hbm, ⟨49, _⟩ => ⟨S8x4096x16, .i1⟩
  | .hbm, ⟨50, _⟩ => ⟨S_, .i32⟩
  | .hbm, ⟨51, _⟩ => ⟨S8x4096x16, .i32⟩
  | .hbm, ⟨52, _⟩ => ⟨S8x4096x16, .i32⟩
  | .hbm, ⟨53, _⟩ => ⟨S8x4096x16, .i32⟩
  | .hbm, ⟨54, _⟩ => ⟨S8x4096x16, .i32⟩
  | .hbm, ⟨55, _⟩ => ⟨S8x4096x16x1, .i32⟩
  | .hbm, ⟨56, _⟩ => ⟨S8x4096x16x1, .i32⟩
  | .hbm, ⟨57, _⟩ => ⟨S8x4096x16x2, .i32⟩
  | .hbm, ⟨58, _⟩ => ⟨S8x4096x16x3, .f32⟩
  | .hbm, ⟨59, _⟩ => ⟨S8x4096x1x3, .f32⟩
  | .hbm, ⟨60, _⟩ => ⟨S8x4096x16x3, .f32⟩
  | .hbm, ⟨61, _⟩ => ⟨S8x4096x16x3, .f32⟩
  | .hbm, ⟨62, _⟩ => ⟨S_, .f32⟩
  | .hbm, ⟨63, _⟩ => ⟨S8x4096x3, .f32⟩
  | .hbm, ⟨64, _⟩ => ⟨S8x4096x3, .f32⟩
  | .hbm, ⟨65, _⟩ => ⟨S_, .f32⟩
  | .hbm, ⟨66, _⟩ => ⟨S8x4096, .f32⟩
  | .hbm, ⟨67, _⟩ => ⟨S8x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_call2_v0 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S4096_S8x4096x4096_2 : S4096.BroadcastsInDim S8x4096x4096 (![2] : Fin 1 → Fin S8x4096x4096.rank)
  slices_S8x4096x4096_S8x4096x16_0_0_0 : S8x4096x4096.Slices ![0, 0, 0] S8x4096x16
  slices_S8x4096x16_S8x4096x1_0_0_0 : S8x4096x16.Slices ![0, 0, 0] S8x4096x1
  bcast_S_S8x4096x16 : S_.BroadcastsInDim S8x4096x16 (![] : Fin 0 → Fin S8x4096x16.rank)
  bcast_S8x4096x1_S8x4096x16_0_1_2 : S8x4096x1.BroadcastsInDim S8x4096x16 (![0, 1, 2] : Fin 3 → Fin S8x4096x16.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x4096x16_0_1_2 : S8x1x1.BroadcastsInDim S8x4096x16 (![0, 1, 2] : Fin 3 → Fin S8x4096x16.rank)
  bcast_S8x4096x16_S8x4096x16x1_0_1_2 : S8x4096x16.BroadcastsInDim S8x4096x16x1 (![0, 1, 2] : Fin 3 → Fin S8x4096x16x1.rank)
  concatenates_S8x4096x16x1_S8x4096x16x1_S8x4096x16x2_d3 : Shape.Concatenates [S8x4096x16x1, S8x4096x16x1] S8x4096x16x2 3
  bcast_S8x4096x3_S8x4096x1x3_0_1_3 : S8x4096x3.BroadcastsInDim S8x4096x1x3 (![0, 1, 3] : Fin 3 → Fin S8x4096x1x3.rank)
  bcast_S8x4096x1x3_S8x4096x16x3_0_1_2_3 : S8x4096x1x3.BroadcastsInDim S8x4096x16x3 (![0, 1, 2, 3] : Fin 4 → Fin S8x4096x16x3.rank)
  reducesTo_S8x4096x16x3_S8x4096x3_d2 : S8x4096x16x3.ReducesTo [2] S8x4096x3
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]
  gather_S8x4096x3_S8x4096x16x2_S8x4096x16x3_3_01_n_n_01_3_113_wf : GatherDims.WF S8x4096x3 S8x4096x16x2 S8x4096x16x3 [3] [0, 1] [] [0, 1] [] 3 ![1, 1, 3]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf
def comparator_i32_d2 : BitVec 32 → BitVec 32 → BitVec 1 :=
  fun l r =>
    let v1 := IntOp.cmpi .slt l r
    v1
def gather_S8x4096x3_S8x4096x16x2_S8x4096x16x3_3_01_n_n_01_3_113 : GatherDims S8x4096x3 S8x4096x16x2 S8x4096x16x3 where
  offsetDims := [3]
  collapsedSliceDims := [0, 1]
  operandBatchingDims := []
  startIndicesBatchingDims := []
  startIndexMap := [0, 1]
  indexVectorDim := 3
  sliceSizes := ![1, 1, 3]
  wf := gather_S8x4096x3_S8x4096x16x2_S8x4096x16x3_3_01_n_n_01_3_113_wf

class Facts : Prop extends Facts₀ where

variable [Facts]
-- ==== Proof.KStep.lean ====
/-
  The kernel body as an ITERATION. One grid point of the kernel handles one batch element: the query block
  `p1 : 4096 × 3`, the searched points transposed `p2 : 3 × 4096`, and the batch's last searched point `last : 1 × 3`.
  The body walks the 4096 searched points in 32 chunks of 128 and carries three accumulators per query row:
  `off` (how many points so far lie in the ball), `ds` (the coordinate sums of the in-ball points whose running
  count is at most 16) and `fs` (the coordinates of the in-ball point whose running count is exactly 1).
  `chunk j` is one chunk's update, `iter j` the state after `j` chunks, `closing` the arithmetic after the last chunk.
  Every definition is spelt with the program's own operations, at any float instance.
-/
import proofs.«166340_j12506944766668_2_alg».proof.KernelIdeal

set_option synthInstance.maxSize 4096

noncomputable section

namespace Cert.KernelIdeal.Knn

open Idealize.ShloMosaic Idealize.SL.Sem Cert.KernelIdeal
open Cert.KernelIdeal.Facts₀ Cert.KernelIdeal.Facts

variable {F : FTy → Type} [FloatOps F] [Cert.KernelIdeal.Facts]

/-- The three accumulators carried from chunk to chunk. -/
structure St (F : FTy → Type) [FloatOps F] where
  off : FVec F S4096x1 .f32
  ds : FVec F S4096x3 .f32
  fs : FVec F S4096x3 .f32

/-- The 128 × 128 upper-triangular 0/1 matrix (row ≤ column): a product with it is an inclusive prefix count. -/
def tri : FVec F S128x128 .bf16 :=
  truncf .bf16 (sitofp .f32 (extui 32 (cmpi .sle (iota .tc S128x128 32 [0] iota_S128x128_d0_w32) (iota .tc S128x128 32 [1] iota_S128x128_d1_w32)) natLt_1_32)) bitsLt_bf16_f32

/-- The accumulators before the first chunk: all zero. -/
def st0 : St F :=
  ⟨broadcast S4096x1 (Scalar.ofBits .f32 0x00000000#32), broadcast S4096x3 (Scalar.ofBits .f32 0x00000000#32), broadcast S4096x3 (Scalar.ofBits .f32 0x00000000#32)⟩

/-- The columns `128 j … 128 j + 127` of the searched points. -/
def cols (p2 : FVec F S3x4096 .f32) (j : Nat) (hj : S3x4096.Slices ![0, 128 * j] S3x128) : FVec F S3x128 .f32 :=
  extractStridedSlice S3x128 ![0, 128 * j] p2 hj

/-- The squared distances of every query row to the 128 points of a chunk, coordinate by coordinate. -/
def sqd (p1 : FVec F S4096x3 .f32) (c : FVec F S3x128 .f32) : FVec F S4096x128 .f32 :=
  have d0 : FVec F S4096x128 .f32 := subf (broadcastTo S4096x128 (extractStridedSlice S4096x1 ![0, 0] p1 slices_S4096x3_o0_0_S4096x1) broadcasts_S4096x1_S4096x128) (broadcastTo S4096x128 (extractStridedSlice S1x128 ![0, 0] c slices_S3x128_o0_0_S1x128) broadcasts_S1x128_S4096x128)
  have d1 : FVec F S4096x128 .f32 := subf (broadcastTo S4096x128 (extractStridedSlice S4096x1 ![0, 1] p1 slices_S4096x3_o0_1_S4096x1) broadcasts_S4096x1_S4096x128) (broadcastTo S4096x128 (extractStridedSlice S1x128 ![1, 0] c slices_S3x128_o1_0_S1x128) broadcasts_S1x128_S4096x128)
  have d2 : FVec F S4096x128 .f32 := subf (broadcastTo S4096x128 (extractStridedSlice S4096x1 ![0, 2] p1 slices_S4096x3_o0_2_S4096x1) broadcasts_S4096x1_S4096x128) (broadcastTo S4096x128 (extractStridedSlice S1x128 ![2, 0] c slices_S3x128_o2_0_S1x128) broadcasts_S1x128_S4096x128)
  addf (addf (mulf d0 d0) (mulf d1 d1)) (mulf d2 d2)

/-- The ball mask of a chunk as 0/1 floats: squared distance at most the squared radius. -/
def ballMask (p1 : FVec F S4096x3 .f32) (c : FVec F S3x128 .f32) : FVec F S4096x128 .f32 :=
  sitofp .f32 (extui 32 (cmpf .ole (sqd p1 c) (broadcast S4096x128 (Scalar.ofBits .f32 0x3C23D70A#32))) natLt_1_32)

/-- The inclusive prefix count of the mask inside the chunk. -/
def localPrefix (U : FVec F S128x128 .bf16) (m : FVec F S4096x128 .f32) : FVec F S4096x128 .f32 :=
  matmul dot_S4096x128_S128x128_S4096x128_1_0_0_1_n_n none (truncf .bf16 m bitsLt_bf16_f32) U (constant S4096x128 .f32 0x00000000#32)

/-- The running count at each point of the chunk: what earlier chunks counted plus the local prefix. -/
def runCount (off : FVec F S4096x1 .f32) (lp : FVec F S4096x128 .f32) : FVec F S4096x128 .f32 :=
  addf (broadcastTo S4096x128 off broadcasts_S4096x1_S4096x128) lp

/-- In the ball and among the first 16 such points. -/
def selFirst16 (m ac : FVec F S4096x128 .f32) : FVec F S4096x128 .f32 :=
  mulf m (sitofp .f32 (extui 32 (cmpf .ole ac (broadcast S4096x128 (Scalar.ofBits .f32 0x41800000#32))) natLt_1_32))

/-- In the ball and the very first such point. -/
def selFirst (m ac : FVec F S4096x128 .f32) : FVec F S4096x128 .f32 :=
  mulf m (sitofp .f32 (extui 32 (cmpf .oeq ac (broadcast S4096x128 (Scalar.ofBits .f32 0x3F800000#32))) natLt_1_32))

/-- A selector's coordinate sums over the chunk. -/
def pick (sel : FVec F S4096x128 .f32) (c : FVec F S3x128 .f32) : FVec F S4096x3 .f32 :=
  matmul dot_S4096x128_S3x128_S4096x3_1_1_0_0_n_n none sel c (constant S4096x3 .f32 0x00000000#32)

/-- One chunk's update of the accumulators. -/
def chunk (p1 : FVec F S4096x3 .f32) (p2 : FVec F S3x4096 .f32) (U : FVec F S128x128 .bf16) (j : Nat)
    (hj : S3x4096.Slices ![0, 128 * j] S3x128) (st : St F) : St F :=
  have c : FVec F S3x128 .f32 := cols p2 j hj
  have m : FVec F S4096x128 .f32 := ballMask p1 c
  have lp : FVec F S4096x128 .f32 := localPrefix U m
  have ac : FVec F S4096x128 .f32 := runCount st.off lp
  ⟨addf st.off (extractStridedSlice S4096x1 ![0, 127] lp slices_S4096x128_o0_127_S4096x1),
   addf st.ds (pick (selFirst16 m ac) c),
   addf st.fs (pick (selFirst m ac) c)⟩

/-- Every chunk's columns lie inside the 4096 columns. -/
theorem cols_ok (j : Nat) (hj : j < 32) : S3x4096.Slices ![0, 128 * j] S3x128 :=
  ⟨rfl, fun a => by
    match a with
    | ⟨0, _⟩ => show 0 + 3 ≤ 3; omega
    | ⟨1, _⟩ => show 128 * j + 128 ≤ 4096; omega⟩

/-- The state after the first `j` chunks. -/
def iter (p1 : FVec F S4096x3 .f32) (p2 : FVec F S3x4096 .f32) (U : FVec F S128x128 .bf16) : (j : Nat) → j ≤ 32 → St F
  | 0, _ => st0
  | j + 1, h => chunk p1 p2 U j (cols_ok j (by omega)) (iter p1 p2 U j (by omega))

/-- After the last chunk: the fallback point for an empty ball, the padding by the first point, the difference to
    16 times the query, and its Euclidean norm. -/
def closing (p1 : FVec F S4096x3 .f32) (last : FVec F S1x3 .f32) (st : St F) : FVec F S1x4096x1 .f32 :=
  have zm : IVec S4096x1 1 := cmpf .oeq st.off (broadcast S4096x1 (Scalar.ofBits .f32 0x00000000#32))
  have L : FVec F S4096x3 .f32 := broadcastTo S4096x3 (shapeCast S1x3 last shapeCasts_S1x3_S1x3) broadcasts_S1x3_S4096x3
  have w : FVec F S4096x1 .f32 := select zm (broadcast S4096x1 (Scalar.ofBits .f32 0x3F800000#32)) (broadcast S4096x1 (Scalar.ofBits .f32 0x00000000#32))
  have fp : FVec F S4096x3 .f32 := addf st.fs (mulf (broadcastTo S4096x3 w broadcasts_S4096x1_S4096x3) L)
  have pad : FVec F S4096x1 .f32 := maximumf (subf (broadcast S4096x1 (Scalar.ofBits .f32 0x41800000#32)) st.off) (broadcast S4096x1 (Scalar.ofBits .f32 0x00000000#32))
  have tot : FVec F S4096x3 .f32 := addf st.ds (mulf (broadcastTo S4096x3 pad broadcasts_S4096x1_S4096x3) fp)
  have d : FVec F S4096x3 .f32 := subf tot (mulf (broadcast S4096x3 (Scalar.ofBits .f32 0x41800000#32)) p1)
  have r : FVec F S4096 .f32 := multiReduction .add [1] S4096 (mulf d d) 0x00000000#32 reduces_S4096x3_S4096 (.inl rfl) rfl
  shapeCast S1x4096x1 (sqrt (shapeCast S4096x1 r shapeCasts_S4096_S4096x1)) shapeCasts_S4096x1_S1x4096x1

/-- The whole body's stored value from the three loaded blocks. -/
def bodyValue (p1 : FVec F S4096x3 .f32) (p2 : FVec F S3x4096 .f32) (last : FVec F S1x3 .f32) : FVec F S1x4096x1 .f32 :=
  closing p1 last (iter p1 p2 tri 32 (Nat.le_refl 32))
-- ==== Proof.KProgK.lean ====
/-
  The kernel body of the word-level program with its arithmetic gathered: it loads its three input blocks (and the output block,
  whose value it does not use), and stores the closing value of the 32-chunk iteration of the loaded blocks. The pure
  operations between the loads and the store are, in the same order, the operations the iteration is spelt with, so the
  equation holds by unfolding both sides.
-/
import proofs.«166340_j12506944766668_2_alg».proof.Proof.Gen.Kernel.Skeleton
import proofs.«166340_j12506944766668_2_alg».proof.Proof.Gen.KernelIdeal
import proofs.«166340_j12506944766668_2_alg».proof.Proof.KStep

set_option synthInstance.maxSize 4096
set_option maxRecDepth 65536

noncomputable section

namespace Cert.Kernel.KProg

open Idealize.ShloMosaic Idealize.SL.Sem Cert.Kernel

variable {F : FTy → Type} [FloatOps F]

/-- Four loads, then one store of the iteration's closing value. -/
noncomputable def bodyProg (arg1 : Memref sig .tc .vmem S1x4096x3 .f32) (arg2 : Memref sig .tc .vmem S1x3x4096 .f32)
    (arg3 : Memref sig .tc .vmem S1x1x3 .f32) (arg4 : Memref sig .tc .vmem S1x4096x1 .f32) :
    Prog (TpuEff nD τ sig (Elt F) Λ₀ .tc) PUnit := do
  let v0 : Vec F S1x4096x3 .f32 ← Prog.lift (.load arg1 (Rect.unit (s := S1x4096x3) ![0, 0, 0] S1x4096x3.size Gen.inb_S1x4096x3_S1x4096x3_0_0_0).toLoadRect (View.loadsAt_vmem Gen.h_S1x4096x3))
  let v2 : Vec F S1x3x4096 .f32 ← Prog.lift (.load arg2 (Rect.unit (s := S1x3x4096) ![0, 0, 0] S1x3x4096.size Gen.inb_S1x3x4096_S1x3x4096_0_0_0).toLoadRect (View.loadsAt_vmem Gen.h_S1x3x4096))
  let v4 : Vec F S1x1x3 .f32 ← Prog.lift (.load arg3 (Rect.unit (s := S1x1x3) ![0, 0, 0] S1x1x3.size Gen.inb_S1x1x3_S1x1x3_0_0_0).toLoadRect (View.loadsAt_vmem Gen.h_S1x1x3))
  let v1479 : Vec F S1x4096x1 .f32 ← Prog.lift (.load arg4 (Rect.unit (s := S1x4096x1) ![0, 0, 0] S1x4096x1.size Gen.inb_S1x4096x1_S1x4096x1_0_0_0).toLoadRect (View.loadsAt_vmem Gen.h_S1x4096x1))
  Prog.lift (.store arg4 (Rect.unit (s := S1x4096x1) ![0, 0, 0] S1x4096x1.size Gen.inb_S1x4096x1_S1x4096x1_0_0_0)
    (Cert.KernelIdeal.Knn.bodyValue (shapeCast S4096x3 v0 Gen.shapeCasts_S1x4096x3_S4096x3) (shapeCast S3x4096 v2 Gen.shapeCasts_S1x3x4096_S3x4096) (shapeCast S1x3 v4 Gen.shapeCasts_S1x1x3_S1x3))
    Finset.univ (View.stores_vmem_bits_univ Gen.h_S1x4096x1 rfl) (.inl rfl))
  pure ⟨⟩

set_option maxHeartbeats 8000000 in
/-- The printed body is that program. -/
theorem body_eq (i : grid0.Coords) (arg1 : Memref sig .tc .vmem S1x4096x3 .f32) (harg1 : arg1.IsWhole) (arg2 : Memref sig .tc .vmem S1x3x4096 .f32) (harg2 : arg2.IsWhole)
    (arg3 : Memref sig .tc .vmem S1x1x3 .f32) (harg3 : arg3.IsWhole) (arg4 : Memref sig .tc .vmem S1x4096x1 .f32) (harg4 : arg4.IsWhole) :
    cc0__knn_kernel (F := F) i arg1 harg1 arg2 harg2 arg3 harg3 arg4 harg4 = bodyProg arg1 arg2 arg3 arg4 := rfl

end Cert.Kernel.KProg

end
-- ==== Proof.KProgI.lean ====
/-
  The kernel body of the idealized program with its arithmetic gathered: it loads its three input blocks (and the output block,
  whose value it does not use), and stores the closing value of the 32-chunk iteration of the loaded blocks. The pure
  operations between the loads and the store are, in the same order, the operations the iteration is spelt with, so the
  equation holds by unfolding both sides.
-/
import proofs.«166340_j12506944766668_2_alg».proof.Proof.Gen.KernelIdeal.Skeleton
import proofs.«166340_j12506944766668_2_alg».proof.Proof.Gen.KernelIdeal
import proofs.«166340_j12506944766668_2_alg».proof.Proof.KStep

set_option synthInstance.maxSize 4096
set_option maxRecDepth 65536

noncomputable section

namespace Cert.KernelIdeal.KProg

open Idealize.ShloMosaic Idealize.SL.Sem Cert.KernelIdeal

variable {F : FTy → Type} [FloatOps F]

/-- Four loads, then one store of the iteration's closing value. -/
noncomputable def bodyProg (arg1 : Memref sig .tc .vmem S1x4096x3 .f32) (arg2 : Memref sig .tc .vmem S1x3x4096 .f32)
    (arg3 : Memref sig .tc .vmem S1x1x3 .f32) (arg4 : Memref sig .tc .vmem S1x4096x1 .f32) :
    Prog (TpuEff nD τ sig (Elt F) Λ₀ .tc) PUnit := do
  let v0 : Vec F S1x4096x3 .f32 ← Prog.lift (.load arg1 (Rect.unit (s := S1x4096x3) ![0, 0, 0] S1x4096x3.size Gen.inb_S1x4096x3_S1x4096x3_0_0_0).toLoadRect (View.loadsAt_vmem Gen.h_S1x4096x3))
  let v2 : Vec F S1x3x4096 .f32 ← Prog.lift (.load arg2 (Rect.unit (s := S1x3x4096) ![0, 0, 0] S1x3x4096.size Gen.inb_S1x3x4096_S1x3x4096_0_0_0).toLoadRect (View.loadsAt_vmem Gen.h_S1x3x4096))
  let v4 : Vec F S1x1x3 .f32 ← Prog.lift (.load arg3 (Rect.unit (s := S1x1x3) ![0, 0, 0] S1x1x3.size Gen.inb_S1x1x3_S1x1x3_0_0_0).toLoadRect (View.loadsAt_vmem Gen.h_S1x1x3))
  let v1479 : Vec F S1x4096x1 .f32 ← Prog.lift (.load arg4 (Rect.unit (s := S1x4096x1) ![0, 0, 0] S1x4096x1.size Gen.inb_S1x4096x1_S1x4096x1_0_0_0).toLoadRect (View.loadsAt_vmem Gen.h_S1x4096x1))
  Prog.lift (.store arg4 (Rect.unit (s := S1x4096x1) ![0, 0, 0] S1x4096x1.size Gen.inb_S1x4096x1_S1x4096x1_0_0_0)
    (Cert.KernelIdeal.Knn.bodyValue (shapeCast S4096x3 v0 Gen.shapeCasts_S1x4096x3_S4096x3) (shapeCast S3x4096 v2 Gen.shapeCasts_S1x3x4096_S3x4096) (shapeCast S1x3 v4 Gen.shapeCasts_S1x1x3_S1x3))
    Finset.univ (View.stores_vmem_bits_univ Gen.h_S1x4096x1 rfl) (.inl rfl))
  pure ⟨⟩

set_option maxHeartbeats 8000000 in
/-- The printed body is that program. -/
theorem body_eq (i : grid0.Coords) (arg1 : Memref sig .tc .vmem S1x4096x3 .f32) (harg1 : arg1.IsWhole) (arg2 : Memref sig .tc .vmem S1x3x4096 .f32) (harg2 : arg2.IsWhole)
    (arg3 : Memref sig .tc .vmem S1x1x3 .f32) (harg3 : arg3.IsWhole) (arg4 : Memref sig .tc .vmem S1x4096x1 .f32) (harg4 : arg4.IsWhole) :
    cc0__knn_kernel (F := F) i arg1 harg1 arg2 harg2 arg3 harg3 arg4 harg4 = bodyProg arg1 arg2 arg3 arg4 := rfl

end Cert.KernelIdeal.KProg

end
-- ==== Proof.KBody.lean ====
/-
  The value the kernel body stores, restated: it is the 32-fold chunk iteration followed by the closing arithmetic,
  applied to the three loaded blocks with their leading unit axis dropped.
-/
import proofs.«166340_j12506944766668_2_alg».proof.Proof.FrameKI

set_option synthInstance.maxSize 4096
set_option maxRecDepth 16384

noncomputable section

namespace Cert.KernelIdeal.Knn

open Idealize.ShloMosaic Idealize.SL.Sem Cert.KernelIdeal

variable {F : FTy → Type} [FloatOps F]

/-- The query block of a grid point without its unit batch axis. -/
abbrev qBlock (x0 : Vec F S1x4096x3 .f32) : FVec F S4096x3 .f32 :=
  shapeCast S4096x3 (View.ld x0 GenP.r0_0) Gen.shapeCasts_S1x4096x3_S4096x3
/-- The transposed searched points of a grid point without the unit batch axis. -/
abbrev pBlock (x1 : Vec F S1x3x4096 .f32) : FVec F S3x4096 .f32 :=
  shapeCast S3x4096 (View.ld x1 GenP.r0_1) Gen.shapeCasts_S1x3x4096_S3x4096
/-- The last searched point of a grid point without the unit batch axis. -/
abbrev lBlock (x2 : Vec F S1x1x3 .f32) : FVec F S1x3 .f32 :=
  shapeCast S1x3 (View.ld x2 GenP.r0_2) Gen.shapeCasts_S1x1x3_S1x3

/-- What the body leaves in the output block is the iteration's closing value. -/
theorem out_eq_bodyValue (x0 : Vec F S1x4096x3 .f32) (x1 : Vec F S1x3x4096 .f32) (x2 : Vec F S1x1x3 .f32) :
    GenP.out0_3 x0 x1 x2 = View.canon [⟨GenP.r0_3, bodyValue (qBlock x0) (pBlock x1) (lBlock x2)⟩] :=
  GenP.out0_3_eq x0 x1 x2

end Cert.KernelIdeal.Knn

end
-- ==== Proof.KnnSpec.lean ====
/-
  The mathematics of the ball query, free of any program.

  A query point `x : Fin 3 → EReal` and 4096 searched points `y n`. A searched point is IN THE BALL when its squared
  distance to `x` is at most the squared radius `ρ`. Two ways of turning the ball into one number are written out:

  * the ACCUMULATING form (`accValue`): every in-ball point gets its inclusive running count `runCnt`; the points with
    running count at most 16 are summed (`sumFirst16`), the point with running count exactly 1 is kept (`firstPt`),
    and the sum is padded, up to 16 terms, with that first point — or, for an empty ball, with the fallback point `l`;
  * the SELECTING form (`selValue`): the in-ball indices are listed in increasing order, the first 16 entries are
    taken, a missing entry is replaced by the list's head (index 4095 for an empty list), and the selected points'
    differences to `x` are summed.

  Both end in the Euclidean norm of a 3-vector. The squared distance is spelt once as a sum of squared differences
  (`sqDiff`) and once expanded (`sqExpand`): the two are equal on real inputs.
-/
import Idealize.ShloMosaic.PureOps.Ideal
import Mathlib.Data.List.GetD
import Mathlib.Algebra.BigOperators.Fin

noncomputable section

namespace Knn

open Idealize.ShloMosaic

/-- `1` where the proposition holds and `0` where it does not, as an extended real. -/
def ind (p : Prop) [Decidable p] : EReal := if p then 1 else 0

/-- The squared distance as a sum of three squared coordinate differences. -/
def sqDiff (x y : Fin 3 → EReal) : EReal :=
  (x 0 - y 0) * (x 0 - y 0) + (x 1 - y 1) * (x 1 - y 1) + (x 2 - y 2) * (x 2 - y 2)

/-- The squared distance expanded: the two squared norms minus twice the inner product. -/
def sqExpand (x y : Fin 3 → EReal) : EReal :=
  ((∑ c, x c * x c) + ∑ c, y c * y c) - 2 * ∑ c, x c * y c

variable (ρ : EReal)

/-! ## The accumulating form -/

/-- The ball's indicator at searched point `n`. -/
def inBall (x : Fin 3 → EReal) (y : Fin 4096 → Fin 3 → EReal) (n : Fin 4096) : EReal :=
  ind (sqDiff x (y n) ≤ ρ)

/-- The inclusive running count: how many points up to and including `n` lie in the ball. -/
def runCnt (x : Fin 3 → EReal) (y : Fin 4096 → Fin 3 → EReal) (n : Fin 4096) : EReal :=
  ∑ n' : Fin 4096, if n' ≤ n then inBall ρ x y n' else 0

/-- How many searched points lie in the ball. -/
def ballCnt (x : Fin 3 → EReal) (y : Fin 4096 → Fin 3 → EReal) : EReal :=
  ∑ n, inBall ρ x y n

/-- Coordinate `c` summed over the in-ball points whose running count is at most 16. -/
def sumFirst16 (x : Fin 3 → EReal) (y : Fin 4096 → Fin 3 → EReal) (c : Fin 3) : EReal :=
  ∑ n, (inBall ρ x y n * ind (runCnt ρ x y n ≤ 16)) * y n c

/-- Coordinate `c` of the in-ball point whose running count is exactly 1 (zero for an empty ball). -/
def firstPt (x : Fin 3 → EReal) (y : Fin 4096 → Fin 3 → EReal) (c : Fin 3) : EReal :=
  ∑ n, (inBall ρ x y n * ind (runCnt ρ x y n = 1)) * y n c

/-- The 16-term sum: the first 16 in-ball points, padded with the first one (or with `l` for an empty ball). -/
def paddedSum (x : Fin 3 → EReal) (y : Fin 4096 → Fin 3 → EReal) (l : Fin 3 → EReal) (c : Fin 3) : EReal :=
  sumFirst16 ρ x y c + max (16 - ballCnt ρ x y) 0 * (firstPt ρ x y c + ind (ballCnt ρ x y = 0) * l c)

/-- The accumulating form's value. -/
def accValue (x : Fin 3 → EReal) (y : Fin 4096 → Fin 3 → EReal) (l : Fin 3 → EReal) : EReal :=
  Ideal.sqrt (∑ c, (paddedSum ρ x y l c - 16 * x c) * (paddedSum ρ x y l c - 16 * x c))

/-! ## The selecting form -/

/-- The in-ball indices in increasing order, the ball decided through the expanded squared distance. -/
def ballList (x : Fin 3 → EReal) (y : Fin 4096 → Fin 3 → EReal) : List (Fin 4096) :=
  (List.finRange 4096).filter fun n => decide (¬ ρ < sqExpand x (y n))

/-- Entry `k` of a list of indices, a missing entry replaced by the list's head, and that by 4095. -/
def pickIdx (L : List (Fin 4096)) (k : Fin 16) : Fin 4096 :=
  L.getD k.val (L.headD ⟨4095, by decide⟩)

/-- Coordinate `c` of the 16 selected points' differences to the query, summed. -/
def selSum (x : Fin 3 → EReal) (y : Fin 4096 → Fin 3 → EReal) (c : Fin 3) : EReal :=
  ∑ k : Fin 16, (y (pickIdx (ballList ρ x y) k) c - x c)

/-- The selecting form's value. -/
def selValue (x : Fin 3 → EReal) (y : Fin 4096 → Fin 3 → EReal) : EReal :=
  Ideal.sqrt (∑ c, selSum ρ x y c * selSum ρ x y c)

end Knn

end
-- ==== Proof.KChunk.lean ====
/-
  One chunk's update of the three accumulators, read entry by entry at the exact instance: the count grows by the
  chunk's in-ball points; the first-16 sum and the first-point sum grow by the chunk's points selected through the
  running count, which is the count so far plus the inclusive prefix inside the chunk.
-/
import proofs.«166340_j12506944766668_2_alg».proof.Proof.KStep
import proofs.«166340_j12506944766668_2_alg».proof.Proof.KnnSpec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Knn

open Idealize.ShloMosaic Idealize.ShloMosaic.ValueIdx Idealize.SL.Sem Cert.KernelIdeal

variable [Cert.KernelIdeal.Facts]

/-- The squared radius, the program's word read as an extended real. -/
abbrev rho : EReal := Ideal.ofBits .f32 0x3C23D70A#32

/-- Query row `s` of the query block. -/
abbrev qrow (p1 : FVec Ideal S4096x3 .f32) (s : Fin 4096) : Fin 3 → EReal := fun c => p1 (ix2 s c)

/-- Searched point `n` of the transposed block. -/
abbrev ppt (p2 : FVec Ideal S3x4096 .f32) (n : Fin 4096) : Fin 3 → EReal := fun c => p2 (ix2 c n)

/-- Position `k` of chunk `j` among the 4096 searched points. -/
def colIdx (j : ℕ) (hj : j < 32) (k : Fin 128) : Fin 4096 := ⟨128 * j + k.val, by omega⟩

/-! ## Words and bits as extended reals -/

/-- The word of `16.0` denotes `16`. -/
theorem ofBits_sixteen : Ideal.ofBits .f32 0x41800000#32 = 16 := by
  simp [Ideal.ofBits, Ideal.ieee, -EReal.coe_mul]; norm_num
  first | rfl | norm_cast | exact EReal.coe_ofNat _

/-- The word of `1.0` denotes `1`. -/
theorem ofBits_one : Ideal.ofBits .f32 0x3F800000#32 = 1 := by
  simp [Ideal.ofBits, Ideal.ieee, -EReal.coe_mul]; norm_num

/-- A decided bit, widened to 32 bits and read as a signed integer, is the indicator of its proposition. -/
theorem bit_toReal (p : Prop) [Decidable p] :
    ((((BitVec.ofBool (decide p)).setWidth 32).toInt : ℝ) : EReal) = Knn.ind p := by
  by_cases h : p
  · simp [h, Knn.ind]
  · simp [h, Knn.ind]

/-- Two naturals below 128, as 32-bit words, compare signed as they compare. -/
theorem sle_small (r k : Nat) (hr : r < 128) (hk : k < 128) :
    (BitVec.ofNat 32 r).sle (BitVec.ofNat 32 k) = decide (r ≤ k) := by
  have e : ∀ n : Nat, n < 128 → (BitVec.ofNat 32 n).toInt = (n : Int) := by
    intro n hn
    rw [BitVec.toInt_eq_toNat_of_lt (by rw [BitVec.toNat_ofNat]; omega), BitVec.toNat_ofNat]
    congr 1; omega
  rw [BitVec.sle, e r hr, e k hk]
  simp

/-! ## Layout operations at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Coordinate `a` of the query block, cut as a column and spread over the chunk, reads the query row's coordinate. -/
theorem qcol_apply (p1 : FVec Ideal S4096x3 .f32) (o : Nat) (h : S4096x3.Slices ![0, o] S4096x1)
    (hb : S4096x1.Broadcasts S4096x128) (s : Fin 4096) (k : Fin 128) (a : Fin 3) (ha : a.val = o) :
    broadcastTo S4096x128 (extractStridedSlice S4096x1 ![0, o] p1 h) hb (ix2 s k) = p1 (ix2 s a) :=
  (broadcastTo_a1_ab_apply _ hb s k).trans (slice2_axis1_apply o p1 h s 0 a (by rw [ha]; rfl))

/-- Coordinate `a` of the chunk, cut as a row and spread over the query rows, reads the point's coordinate. -/
theorem prow_apply (c : FVec Ideal S3x128 .f32) (o : Nat) (h : S3x128.Slices ![o, 0] S1x128)
    (hb : S1x128.Broadcasts S4096x128) (s : Fin 4096) (k : Fin 128) (a : Fin 3) (ha : a.val = o) :
    broadcastTo S4096x128 (extractStridedSlice S1x128 ![o, 0] c h) hb (ix2 s k) = c (ix2 a k) :=
  (broadcastTo_1b_ab_apply _ hb s k).trans (slice2_axis0_apply o c h 0 k a (by rw [ha]; rfl))

/-- Column `k` of chunk `j` is column `128 j + k` of the searched points. -/
theorem cols_apply (p2 : FVec Ideal S3x4096 .f32) (j : ℕ) (hj : j < 32) (a : Fin 3) (k : Fin 128) :
    cols p2 j (cols_ok j hj) (ix2 a k) = p2 (ix2 a (colIdx j hj k)) :=
  slice2_axis1_apply (128 * j) p2 (cols_ok j hj) a k (colIdx j hj k) rfl

/-! ## The comparisons as indicators -/

/-- `a ≤ b` as a 0/1 float is the indicator of the inequality. -/
theorem mask_ole_apply {S : Shape} (a b : FVec Ideal S .f32) (h : 1 < 32) (i : S.Idx) :
    (sitofp .f32 (extui 32 (cmpf .ole a b) h) : FVec Ideal S .f32) i = Knn.ind (a i ≤ b i) :=
  bit_toReal _

/-- `a = b` as a 0/1 float is the indicator of the equality. -/
theorem mask_oeq_apply {S : Shape} (a b : FVec Ideal S .f32) (h : 1 < 32) (i : S.Idx) :
    (sitofp .f32 (extui 32 (cmpf .oeq a b) h) : FVec Ideal S .f32) i = Knn.ind (a i = b i) :=
  bit_toReal _

/-- The triangular matrix at `(r, k)` is the indicator of `r ≤ k`. -/
theorem tri_apply (r k : Fin 128) : (tri : FVec Ideal S128x128 .bf16) (ix2 r k) = Knn.ind (r ≤ k) := by
  unfold tri
  show ((((IntOp.cmpi .sle (iota .tc S128x128 32 [0] _ (ix2 r k)) (iota .tc S128x128 32 [1] _ (ix2 r k))).setWidth 32).toInt : ℝ) : EReal) = _
  rw [iota_single_apply, iota_single_apply]
  show ((((BitVec.ofBool ((BitVec.ofNat 32 r.val).sle (BitVec.ofNat 32 k.val))).setWidth 32).toInt : ℝ) : EReal) = _
  rw [sle_small r.val k.val r.isLt k.isLt]
  exact bit_toReal (r.val ≤ k.val)

/-! ## The squared distance and the ball mask -/

/-- The squared distance of query row `s` to the chunk's point `k`: the sum of the three squared differences. -/
theorem sqd_apply (p1 : FVec Ideal S4096x3 .f32) (c : FVec Ideal S3x128 .f32) (s : Fin 4096) (k : Fin 128) :
    sqd p1 c (ix2 s k) = Knn.sqDiff (fun a => p1 (ix2 s a)) (fun a => c (ix2 a k)) := by
  unfold sqd Knn.sqDiff
  simp only [addf_apply, mulf_apply, subf_apply]
  rw [qcol_apply p1 0 _ _ s k 0 rfl, qcol_apply p1 1 _ _ s k 1 rfl, qcol_apply p1 2 _ _ s k 2 rfl,
    prow_apply c 0 _ _ s k 0 rfl, prow_apply c 1 _ _ s k 1 rfl, prow_apply c 2 _ _ s k 2 rfl]

/-- The chunk's ball mask at `(s, k)` is the ball's indicator at the searched point `128 j + k`. -/
theorem ballMask_apply (p1 : FVec Ideal S4096x3 .f32) (p2 : FVec Ideal S3x4096 .f32) (j : ℕ) (hj : j < 32)
    (s : Fin 4096) (k : Fin 128) :
    ballMask p1 (cols p2 j (cols_ok j hj)) (ix2 s k) = Knn.inBall rho (qrow p1 s) (ppt p2) (colIdx j hj k) := by
  unfold ballMask
  have e : (fun a => cols p2 j (cols_ok j hj) (ix2 a k)) = ppt p2 (colIdx j hj k) :=
    funext fun a => cols_apply p2 j hj a k
  rw [mask_ole_apply, sqd_apply, e]
  rfl

/-! ## The two products as sums -/

theorem lhs_lp_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch from List.not_mem_nil),
    dif_pos (show (0 : Fin S4096x128.rank) ∈ dot_S4096x128_S128x128_S4096x128_1_0_0_1_n_n.lhsNonContracting from List.mem_singleton.mpr rfl)]
  rfl
theorem lhs_lp_1 (i : S4096x128.Idx) (q : dot_S4096x128_S128x128_S4096x128_1_0_0_1_n_n.contr.Idx) :
    (dot_S4096x128_S128x128_S4096x128_1_0_0_1_n_n.lhsIdx i q 1).val = (q ⟨0, Nat.one_pos⟩).val :=
  dot_S4096x128_S128x128_S4096x128_1_0_0_1_n_n.lhsIdx_val_of_single rfl i q
theorem rhs_lp_0 (i : S4096x128.Idx) (q : dot_S4096x128_S128x128_S4096x128_1_0_0_1_n_n.contr.Idx) :
    (dot_S4096x128_S128x128_S4096x128_1_0_0_1_n_n.rhsIdx i q 0).val = (q ⟨0, Nat.one_pos⟩).val :=
  dot_S4096x128_S128x128_S4096x128_1_0_0_1_n_n.rhsIdx_val_of_single rfl i q
theorem rhs_lp_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch from List.not_mem_nil),
    dif_pos (show (1 : Fin S128x128.rank) ∈ dot_S4096x128_S128x128_S4096x128_1_0_0_1_n_n.rhsNonContracting from List.mem_singleton.mpr rfl)]
  rfl

/-- The product with a 128 × 128 matrix `U`, at `(s, k)`: the sum over the chunk of the row's entries times `U`'s column `k`. -/
theorem localPrefix_apply (U : FVec Ideal S128x128 .bf16) (m : FVec Ideal S4096x128 .f32) (s : Fin 4096) (k : Fin 128) :
    localPrefix U m (ix2 s k) = ∑ k' : Fin 128, m (ix2 s k') * U (ix2 k' k) := by
  unfold localPrefix
  simp only [matmul]
  rw [Ideal.matmul_constant_zero_apply,
    ← Equiv.sum_comp (contrEquiv1 dot_S4096x128_S128x128_S4096x128_1_0_0_1_n_n 128 rfl rfl).symm]
  refine Finset.sum_congr rfl fun k' _ => ?_
  have hk := contrEquiv1_symm_val dot_S4096x128_S128x128_S4096x128_1_0_0_1_n_n 128 rfl rfl k'
  have el : dot_S4096x128_S128x128_S4096x128_1_0_0_1_n_n.lhsIdx (ix2 s k)
      ((contrEquiv1 dot_S4096x128_S128x128_S4096x128_1_0_0_1_n_n 128 rfl rfl).symm k') = ix2 s k' :=
    funext fun a => Fin.ext (by
      match a with
      | ⟨0, _⟩ => exact lhs_lp_0 _ _
      | ⟨1, _⟩ => exact (lhs_lp_1 _ _).trans hk)
  have er : dot_S4096x128_S128x128_S4096x128_1_0_0_1_n_n.rhsIdx (ix2 s k)
      ((contrEquiv1 dot_S4096x128_S128x128_S4096x128_1_0_0_1_n_n 128 rfl rfl).symm k') = ix2 k' k :=
    funext fun a => Fin.ext (by
      match a with
      | ⟨0, _⟩ => exact (rhs_lp_0 _ _).trans hk
      | ⟨1, _⟩ => exact rhs_lp_1 _ _)
  rw [el, er]
  rfl

theorem lhs_pk_0 (i : S4096x3.Idx) (q : dot_S4096x128_S3x128_S4096x3_1_1_0_0_n_n.contr.Idx) :
    (dot_S4096x128_S3x128_S4096x3_1_1_0_0_n_n.lhsIdx i q 0).val = (i 0).val := by
  unfold DotDims.lhsIdx
  rw [dif_neg (show ¬(0 : Fin S4096x128.rank) ∈ dot_S4096x128_S3x128_S4096x3_1_1_0_0_n_n.lhsBatch from List.not_mem_nil),
    dif_pos (show (0 : Fin S4096x128.rank) ∈ dot_S4096x128_S3x128_S4096x3_1_1_0_0_n_n.lhsNonContracting from List.mem_singleton.mpr rfl)]
  rfl
theorem lhs_pk_1 (i : S4096x3.Idx) (q : dot_S4096x128_S3x128_S4096x3_1_1_0_0_n_n.contr.Idx) :
    (dot_S4096x128_S3x128_S4096x3_1_1_0_0_n_n.lhsIdx i q 1).val = (q ⟨0, Nat.one_pos⟩).val :=
  dot_S4096x128_S3x128_S4096x3_1_1_0_0_n_n.lhsIdx_val_of_single rfl i q
theorem rhs_pk_0 (i : S4096x3.Idx) (q : dot_S4096x128_S3x128_S4096x3_1_1_0_0_n_n.contr.Idx) :
    (dot_S4096x128_S3x128_S4096x3_1_1_0_0_n_n.rhsIdx i q 0).val = (i 1).val := by
  unfold DotDims.rhsIdx
  rw [dif_neg (show ¬(0 : Fin S3x128.rank) ∈ dot_S4096x128_S3x128_S4096x3_1_1_0_0_n_n.rhsBatch from List.not_mem_nil),
    dif_pos (show (0 : Fin S3x128.rank) ∈ dot_S4096x128_S3x128_S4096x3_1_1_0_0_n_n.rhsNonContracting from List.mem_singleton.mpr rfl)]
  rfl
theorem rhs_pk_1 (i : S4096x3.Idx) (q : dot_S4096x128_S3x128_S4096x3_1_1_0_0_n_n.contr.Idx) :
    (dot_S4096x128_S3x128_S4096x3_1_1_0_0_n_n.rhsIdx i q 1).val = (q ⟨0, Nat.one_pos⟩).val :=
  dot_S4096x128_S3x128_S4096x3_1_1_0_0_n_n.rhsIdx_val_of_single rfl i q

/-- A selector's coordinate sum at `(s, a)`: the sum over the chunk of the selector times the points' coordinate `a`. -/
theorem pick_apply (sel : FVec Ideal S4096x128 .f32) (c : FVec Ideal S3x128 .f32) (s : Fin 4096) (a : Fin 3) :
    pick sel c (ix2 s a) = ∑ k : Fin 128, sel (ix2 s k) * c (ix2 a k) := by
  unfold pick
  simp only [matmul]
  rw [Ideal.matmul_constant_zero_apply,
    ← Equiv.sum_comp (contrEquiv1 dot_S4096x128_S3x128_S4096x3_1_1_0_0_n_n 128 rfl rfl).symm]
  refine Finset.sum_congr rfl fun k _ => ?_
  have hk := contrEquiv1_symm_val dot_S4096x128_S3x128_S4096x3_1_1_0_0_n_n 128 rfl rfl k
  have el : dot_S4096x128_S3x128_S4096x3_1_1_0_0_n_n.lhsIdx (ix2 s a)
      ((contrEquiv1 dot_S4096x128_S3x128_S4096x3_1_1_0_0_n_n 128 rfl rfl).symm k) = ix2 s k :=
    funext fun b => Fin.ext (by
      match b with
      | ⟨0, _⟩ => exact lhs_pk_0 _ _
      | ⟨1, _⟩ => exact (lhs_pk_1 _ _).trans hk)
  have er : dot_S4096x128_S3x128_S4096x3_1_1_0_0_n_n.rhsIdx (ix2 s a)
      ((contrEquiv1 dot_S4096x128_S3x128_S4096x3_1_1_0_0_n_n 128 rfl rfl).symm k) = ix2 a k :=
    funext fun b => Fin.ext (by
      match b with
      | ⟨0, _⟩ => exact rhs_pk_0 _ _
      | ⟨1, _⟩ => exact (rhs_pk_1 _ _).trans hk)
  rw [el, er]

/-! ## The running count and the two selectors -/

/-- The chunk's inclusive prefix count at `(s, k)`: the ball's indicators of the chunk's points up to `k`, summed. -/
theorem lp_apply (p1 : FVec Ideal S4096x3 .f32) (p2 : FVec Ideal S3x4096 .f32) (j : ℕ) (hj : j < 32)
    (s : Fin 4096) (k : Fin 128) :
    localPrefix tri (ballMask p1 (cols p2 j (cols_ok j hj))) (ix2 s k)
      = ∑ k' : Fin 128, if k' ≤ k then Knn.inBall rho (qrow p1 s) (ppt p2) (colIdx j hj k') else 0 := by
  rw [localPrefix_apply]
  refine Finset.sum_congr rfl fun k' _ => ?_
  rw [tri_apply, ballMask_apply]
  by_cases h : k' ≤ k
  · rw [show Knn.ind (k' ≤ k) = 1 from if_pos h, mul_one, if_pos h]
  · rw [show Knn.ind (k' ≤ k) = 0 from if_neg h, mul_zero, if_neg h]

/-- The running count at `(s, k)`: the count so far plus the local prefix. -/
theorem runCount_apply (off : FVec Ideal S4096x1 .f32) (lp : FVec Ideal S4096x128 .f32) (s : Fin 4096) (k : Fin 128) :
    runCount off lp (ix2 s k) = off (ix2 s (0 : Fin 1)) + lp (ix2 s k) := by
  unfold runCount
  rw [addf_apply, broadcastTo_a1_ab_apply]

/-- In the ball and with running count at most 16. -/
theorem selFirst16_apply (m ac : FVec Ideal S4096x128 .f32) (i : S4096x128.Idx) :
    selFirst16 m ac i = m i * Knn.ind (ac i ≤ 16) := by
  unfold selFirst16
  rw [mulf_apply, mask_ole_apply]
  show m i * Knn.ind (ac i ≤ Ideal.ofBits .f32 0x41800000#32) = _
  rw [ofBits_sixteen]

/-- In the ball and with running count exactly 1. -/
theorem selFirst_apply (m ac : FVec Ideal S4096x128 .f32) (i : S4096x128.Idx) :
    selFirst m ac i = m i * Knn.ind (ac i = 1) := by
  unfold selFirst
  rw [mulf_apply, mask_oeq_apply]
  show m i * Knn.ind (ac i = Ideal.ofBits .f32 0x3F800000#32) = _
  rw [ofBits_one]

/-! ## The accumulators -/

theorem st0_off (s : Fin 4096) : (st0 : St Ideal).off (ix2 s (0 : Fin 1)) = 0 := by
  show Ideal.ofBits .f32 0x00000000#32 = 0
  exact Ideal.ofBits_zero_f32
theorem st0_ds (s : Fin 4096) (c : Fin 3) : (st0 : St Ideal).ds (ix2 s c) = 0 := by
  show Ideal.ofBits .f32 0x00000000#32 = 0
  exact Ideal.ofBits_zero_f32
theorem st0_fs (s : Fin 4096) (c : Fin 3) : (st0 : St Ideal).fs (ix2 s c) = 0 := by
  show Ideal.ofBits .f32 0x00000000#32 = 0
  exact Ideal.ofBits_zero_f32

/-- The count grows by the chunk's in-ball points. -/
theorem chunk_off (p1 : FVec Ideal S4096x3 .f32) (p2 : FVec Ideal S3x4096 .f32) (j : ℕ) (hj : j < 32) (st : St Ideal) (s : Fin 4096) :
    (chunk p1 p2 tri j (cols_ok j hj) st).off (ix2 s (0 : Fin 1))
      = st.off (ix2 s (0 : Fin 1)) + ∑ k : Fin 128, Knn.inBall rho (qrow p1 s) (ppt p2) (colIdx j hj k) := by
  show st.off (ix2 s (0 : Fin 1))
      + extractStridedSlice S4096x1 ![0, 127] (localPrefix tri (ballMask p1 (cols p2 j (cols_ok j hj)))) _ (ix2 s (0 : Fin 1)) = _
  rw [slice2_axis1_apply 127 _ _ s 0 ⟨127, by omega⟩ rfl, lp_apply]
  refine congrArg (st.off (ix2 s (0 : Fin 1)) + ·) (Finset.sum_congr rfl fun k _ => ?_)
  exact if_pos (Fin.le_def.mpr (Nat.le_of_lt_succ k.isLt))

/-- The first-16 sum grows by the chunk's in-ball points whose running count is at most 16. -/
theorem chunk_ds (p1 : FVec Ideal S4096x3 .f32) (p2 : FVec Ideal S3x4096 .f32) (j : ℕ) (hj : j < 32) (st : St Ideal) (s : Fin 4096) (c : Fin 3) :
    (chunk p1 p2 tri j (cols_ok j hj) st).ds (ix2 s c)
      = st.ds (ix2 s c) + ∑ k : Fin 128, (Knn.inBall rho (qrow p1 s) (ppt p2) (colIdx j hj k)
          * Knn.ind (st.off (ix2 s (0 : Fin 1)) + (∑ k' : Fin 128, if k' ≤ k then Knn.inBall rho (qrow p1 s) (ppt p2) (colIdx j hj k') else 0) ≤ 16))
          * p2 (ix2 c (colIdx j hj k)) := by
  show st.ds (ix2 s c)
      + pick (selFirst16 (ballMask p1 (cols p2 j (cols_ok j hj)))
          (runCount st.off (localPrefix tri (ballMask p1 (cols p2 j (cols_ok j hj))))))
          (cols p2 j (cols_ok j hj)) (ix2 s c) = _
  rw [pick_apply]
  refine congrArg (st.ds (ix2 s c) + ·) (Finset.sum_congr rfl fun k _ => ?_)
  rw [selFirst16_apply, runCount_apply, lp_apply, ballMask_apply, cols_apply]

/-- The first-point sum grows by the chunk's in-ball point whose running count is exactly 1. -/
theorem chunk_fs (p1 : FVec Ideal S4096x3 .f32) (p2 : FVec Ideal S3x4096 .f32) (j : ℕ) (hj : j < 32) (st : St Ideal) (s : Fin 4096) (c : Fin 3) :
    (chunk p1 p2 tri j (cols_ok j hj) st).fs (ix2 s c)
      = st.fs (ix2 s c) + ∑ k : Fin 128, (Knn.inBall rho (qrow p1 s) (ppt p2) (colIdx j hj k)
          * Knn.ind (st.off (ix2 s (0 : Fin 1)) + (∑ k' : Fin 128, if k' ≤ k then Knn.inBall rho (qrow p1 s) (ppt p2) (colIdx j hj k') else 0) = 1))
          * p2 (ix2 c (colIdx j hj k)) := by
  show st.fs (ix2 s c)
      + pick (selFirst (ballMask p1 (cols p2 j (cols_ok j hj)))
          (runCount st.off (localPrefix tri (ballMask p1 (cols p2 j (cols_ok j hj))))))
          (cols p2 j (cols_ok j hj)) (ix2 s c) = _
  rw [pick_apply]
  refine congrArg (st.fs (ix2 s c) + ·) (Finset.sum_congr rfl fun k _ => ?_)
  rw [selFirst_apply, runCount_apply, lp_apply, ballMask_apply, cols_apply]

end Cert.KernelIdeal.Knn

end
-- ==== Proof.KIter.lean ====
/-
  The 32 chunks together, and the closing arithmetic: after all chunks the three accumulators hold the whole-array
  sums of the accumulating form, and the stored value at query row `s` is that form's value.
-/
import proofs.«166340_j12506944766668_2_alg».proof.Proof.KChunk

set_option synthInstance.maxSize 4096

noncomputable section

namespace Cert.KernelIdeal.Knn

open Idealize.ShloMosaic Idealize.ShloMosaic.ValueIdx Idealize.SL.Sem Cert.KernelIdeal

variable [Cert.KernelIdeal.Facts]

/-! ## Sums over the first chunks -/

/-- The positions of chunk `j` are exactly the indices from `128 j` to `128 j + 127`: a sum over those indices is a sum
    over the chunk. -/
theorem it_sum_chunk (f : Fin 4096 → EReal) (j : ℕ) (hj : j < 32) :
    (∑ n : Fin 4096, if 128 * j ≤ n.val ∧ n.val < 128 * j + 128 then f n else 0) = ∑ k : Fin 128, f (colIdx j hj k) := by
  rw [← Finset.sum_filter]
  symm
  refine Finset.sum_bij (fun k _ => colIdx j hj k) ?_ ?_ ?_ ?_
  · intro k _
    rw [Finset.mem_filter]
    have := k.isLt
    exact ⟨Finset.mem_univ _, (show 128 * j ≤ 128 * j + k.val by omega), (show 128 * j + k.val < 128 * j + 128 by omega)⟩
  · intro a _ b _ h
    have : 128 * j + a.val = 128 * j + b.val := congrArg Fin.val h
    exact Fin.ext (by omega)
  · intro n hn
    rw [Finset.mem_filter] at hn
    have h1 := hn.2.1
    have h2 := hn.2.2
    exact ⟨⟨n.val - 128 * j, by omega⟩, Finset.mem_univ _, Fin.ext (show 128 * j + (n.val - 128 * j) = n.val by omega)⟩
  · intro k _; rfl

/-- The sum over the first `j + 1` chunks is the sum over the first `j` chunks plus the sum over chunk `j`. -/
theorem it_sum_lt_succ (f : Fin 4096 → EReal) (j : ℕ) (hj : j < 32) :
    (∑ n : Fin 4096, if n.val < 128 * (j + 1) then f n else 0)
      = (∑ n : Fin 4096, if n.val < 128 * j then f n else 0) + ∑ k : Fin 128, f (colIdx j hj k) := by
  rw [← it_sum_chunk f j hj, ← Finset.sum_add_distrib]
  refine Finset.sum_congr rfl fun n _ => ?_
  by_cases h1 : n.val < 128 * j
  · rw [if_pos (show n.val < 128 * (j + 1) by omega), if_pos h1, if_neg (by omega), add_zero]
  · by_cases h2 : n.val < 128 * (j + 1)
    · rw [if_pos h2, if_neg h1, if_pos (by omega), zero_add]
    · rw [if_neg h2, if_neg h1, if_neg (by omega), add_zero]

/-- The inclusive running count at position `k` of chunk `j`: what the first `j` chunks count plus the inclusive prefix
    inside the chunk. -/
theorem it_run_chunk (M : Fin 4096 → EReal) (j : ℕ) (hj : j < 32) (k : Fin 128) :
    (∑ n : Fin 4096, if n.val < 128 * j then M n else 0) + (∑ k' : Fin 128, if k' ≤ k then M (colIdx j hj k') else 0)
      = ∑ n' : Fin 4096, if n' ≤ colIdx j hj k then M n' else 0 := by
  have hk := k.isLt
  have e0 : (∑ n' : Fin 4096, if n' ≤ colIdx j hj k then M n' else 0)
      = ∑ n : Fin 4096, if n.val < 128 * (j + 1) then (if n ≤ colIdx j hj k then M n else 0) else 0 := by
    refine Finset.sum_congr rfl fun n _ => ?_
    by_cases h : n ≤ colIdx j hj k
    · have h' : n.val ≤ 128 * j + k.val := h
      rw [if_pos h, if_pos (show n.val < 128 * (j + 1) by omega)]
    · rw [if_neg h, ite_self]
  rw [e0, it_sum_lt_succ _ j hj]
  congr 1
  · refine Finset.sum_congr rfl fun n _ => ?_
    by_cases h1 : n.val < 128 * j
    · rw [if_pos h1, if_pos h1, if_pos (show n ≤ colIdx j hj k from (show n.val ≤ 128 * j + k.val by omega))]
    · rw [if_neg h1, if_neg h1]
  · refine Finset.sum_congr rfl fun k' _ => ?_
    have hiff : (colIdx j hj k' ≤ colIdx j hj k) ↔ k' ≤ k := by
      show 128 * j + k'.val ≤ 128 * j + k.val ↔ k'.val ≤ k.val
      omega
    by_cases h : k' ≤ k
    · rw [if_pos h, if_pos (hiff.mpr h)]
    · rw [if_neg h, if_neg (fun h' => h (hiff.mp h'))]

/-! ## Words, a select on an equality test, and two layout readings -/

/-- The word of sixteen is the extended real `16`. -/
theorem it_word16 : Ideal.ofBits .f32 0x41800000#32 = 16 := by
  simp [Ideal.ofBits, Ideal.ieee]
  rw [← EReal.coe_mul]
  norm_num
  norm_cast

/-- The word of one is the extended real `1`. -/
theorem it_word1 : Ideal.ofBits .f32 0x3F800000#32 = 1 := by
  simp [Ideal.ofBits, Ideal.ieee]
  rw [← EReal.coe_mul]
  norm_num

/-- A select of one against zero on an equality test is that equality's indicator. -/
theorem it_select_ind (x y : EReal) :
    Scalar.select (Ideal.cmp .oeq x y) (1 : EReal) 0 = Knn.ind (x = y) := by
  unfold Scalar.select Ideal.cmp Knn.ind
  by_cases h : x = y
  · simp [h]
  · simp [h]

section
variable {α : Type}
/-- An `[a, 1]` column broadcast to `[a, b]` reads, at `(p, c)`, the column at `p`. -/
theorem it_broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, 0)`, the array at `p`. -/
theorem it_shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    omega)
end

/-! ## The 32 chunks -/

/-- After `j` chunks the three accumulators of query row `s` hold the sums over the first `128 j` searched points: the
    ball's count, the coordinate sums of the in-ball points with running count at most 16, and those of the in-ball
    point with running count exactly 1. -/
theorem it_iter_acc (p1 : FVec Ideal S4096x3 .f32) (p2 : FVec Ideal S3x4096 .f32) (s : Fin 4096) :
    ∀ (j : ℕ) (h : j ≤ 32),
      (iter p1 p2 tri j h).off (ix2 s (0 : Fin 1))
          = (∑ n : Fin 4096, if n.val < 128 * j then Knn.inBall rho (qrow p1 s) (ppt p2) n else 0)
      ∧ (∀ c : Fin 3, (iter p1 p2 tri j h).ds (ix2 s c)
          = ∑ n : Fin 4096, if n.val < 128 * j then
              (Knn.inBall rho (qrow p1 s) (ppt p2) n * Knn.ind (Knn.runCnt rho (qrow p1 s) (ppt p2) n ≤ 16)) * p2 (ix2 c n) else 0)
      ∧ (∀ c : Fin 3, (iter p1 p2 tri j h).fs (ix2 s c)
          = ∑ n : Fin 4096, if n.val < 128 * j then
              (Knn.inBall rho (qrow p1 s) (ppt p2) n * Knn.ind (Knn.runCnt rho (qrow p1 s) (ppt p2) n = 1)) * p2 (ix2 c n) else 0) := by
  intro j
  induction j with
  | zero =>
    intro h
    refine ⟨?_, fun c => ?_, fun c => ?_⟩
    · show (st0 : St Ideal).off (ix2 s (0 : Fin 1)) = _
      rw [st0_off]; simp
    · show (st0 : St Ideal).ds (ix2 s c) = _
      rw [st0_ds]; simp
    · show (st0 : St Ideal).fs (ix2 s c) = _
      rw [st0_fs]; simp
  | succ j ih =>
    intro h
    have hj : j < 32 := by omega
    obtain ⟨ho, hd, hf⟩ := ih (by omega)
    refine ⟨?_, fun c => ?_, fun c => ?_⟩
    · show (chunk p1 p2 tri j (cols_ok j hj) (iter p1 p2 tri j (by omega))).off (ix2 s (0 : Fin 1)) = _
      rw [chunk_off, ho, it_sum_lt_succ _ j hj]
    · show (chunk p1 p2 tri j (cols_ok j hj) (iter p1 p2 tri j (by omega))).ds (ix2 s c) = _
      rw [chunk_ds, hd c, ho, it_sum_lt_succ _ j hj]
      unfold Knn.runCnt
      refine congrArg (fun t => _ + t) (Finset.sum_congr rfl fun k _ => ?_)
      rw [it_run_chunk]
    · show (chunk p1 p2 tri j (cols_ok j hj) (iter p1 p2 tri j (by omega))).fs (ix2 s c) = _
      rw [chunk_fs, hf c, ho, it_sum_lt_succ _ j hj]
      unfold Knn.runCnt
      refine congrArg (fun t => _ + t) (Finset.sum_congr rfl fun k _ => ?_)
      rw [it_run_chunk]

/-- A sum over the indices below `128 · 32 = 4096` is the whole sum. -/
theorem it_sum_all (f : Fin 4096 → EReal) : (∑ n : Fin 4096, if n.val < 128 * 32 then f n else 0) = ∑ n : Fin 4096, f n :=
  Finset.sum_congr rfl fun n _ => if_pos (by have := n.isLt; omega)

/-- After all 32 chunks: the ball's count, the first-16 sums and the first point. -/
theorem it_final (p1 : FVec Ideal S4096x3 .f32) (p2 : FVec Ideal S3x4096 .f32) (s : Fin 4096) :
    (iter p1 p2 tri 32 (Nat.le_refl 32)).off (ix2 s (0 : Fin 1)) = Knn.ballCnt rho (qrow p1 s) (ppt p2)
    ∧ (∀ c : Fin 3, (iter p1 p2 tri 32 (Nat.le_refl 32)).ds (ix2 s c) = Knn.sumFirst16 rho (qrow p1 s) (ppt p2) c)
    ∧ (∀ c : Fin 3, (iter p1 p2 tri 32 (Nat.le_refl 32)).fs (ix2 s c) = Knn.firstPt rho (qrow p1 s) (ppt p2) c) := by
  obtain ⟨ho, hd, hf⟩ := it_iter_acc p1 p2 s 32 (Nat.le_refl 32)
  refine ⟨?_, fun c => ?_, fun c => ?_⟩
  · rw [ho, it_sum_all]; rfl
  · rw [hd c, it_sum_all]; rfl
  · rw [hf c, it_sum_all]; rfl

/-! ## The closing arithmetic -/

open Cert.KernelIdeal.Facts₀ Cert.KernelIdeal.Facts in
/-- The closing arithmetic at query row `s`: the norm of the padded 16-term sum's difference to 16 times the query. -/
theorem it_closing_apply (p1 : FVec Ideal S4096x3 .f32) (last : FVec Ideal S1x3 .f32) (st : St Ideal) (s : Fin 4096) :
    closing (F := Ideal) p1 last st (ix3 (0 : Fin 1) s (0 : Fin 1))
      = Ideal.sqrt (∑ c : Fin 3,
          ((st.ds (ix2 s c) + max (16 - st.off (ix2 s (0 : Fin 1))) 0
              * (st.fs (ix2 s c) + Knn.ind (st.off (ix2 s (0 : Fin 1)) = 0) * last (ix2 (0 : Fin 1) c))) - 16 * p1 (ix2 s c))
          * ((st.ds (ix2 s c) + max (16 - st.off (ix2 s (0 : Fin 1))) 0
              * (st.fs (ix2 s c) + Knn.ind (st.off (ix2 s (0 : Fin 1)) = 0) * last (ix2 (0 : Fin 1) c))) - 16 * p1 (ix2 s c))) := by
  unfold closing
  dsimp only
  refine (shapeCast_ab_1ab_apply _ _ (0 : Fin 1) s (0 : Fin 1)).trans ?_
  show Ideal.sqrt _ = Ideal.sqrt _
  refine congrArg Ideal.sqrt ?_
  refine (it_shapeCast_a_a1_apply _ _ s (0 : Fin 1)).trans ?_
  refine (Ideal.multiReduction_add_single _ _ reduces_S4096x3_S4096 (.inl rfl) rfl (ix1 s)).trans ?_
  show (∑ c : Fin 3, _) = _
  refine Finset.sum_congr rfl fun c _ => ?_
  have hl : Shape.Reduces.lift reduces_S4096x3_S4096 (ix1 s) c = ix2 s c := by
    funext a
    match a with
    | ⟨0, _⟩ => exact Fin.ext rfl
    | ⟨1, _⟩ => exact Fin.ext rfl
  rw [hl]
  have hb1 : ∀ (v : FVec Ideal S4096x1 .f32), broadcastTo S4096x3 v broadcasts_S4096x1_S4096x3 (ix2 s c) = v (ix2 s (0 : Fin 1)) :=
    fun v => it_broadcastTo_a1_ab_apply v _ s c
  have hb2 : broadcastTo S4096x3 (shapeCast S1x3 last shapeCasts_S1x3_S1x3) broadcasts_S1x3_S4096x3 (ix2 s c) = last (ix2 (0 : Fin 1) c) := by
    rw [broadcastTo_1b_ab_apply, shapeCast_self]
  simp only [mulf_apply, subf_apply, addf_apply, maximumf_apply, broadcast_apply, hb1, hb2, select_apply, cmpf_apply,
    Ideal.cmpf_def, Ideal.ofBits_def, it_word16, it_word1, Ideal.ofBits_zero_f32, it_select_ind]

/-- The body's stored value at query row `s` is the accumulating form of the ball query on that row, the searched
    points of the block, and the block's last-point operand as the fallback. -/
theorem bodyValue_apply (p1 : FVec Ideal S4096x3 .f32) (p2 : FVec Ideal S3x4096 .f32) (last : FVec Ideal S1x3 .f32) (s : Fin 4096) :
    bodyValue (F := Ideal) p1 p2 last (ix3 (0 : Fin 1) s (0 : Fin 1))
      = Knn.accValue rho (qrow p1 s) (ppt p2) (fun c => last (ix2 (0 : Fin 1) c)) := by
  obtain ⟨ho, hd, hf⟩ := it_final p1 p2 s
  unfold bodyValue
  rw [it_closing_apply, ho]
  unfold Knn.accValue Knn.paddedSum
  refine congrArg Ideal.sqrt (Finset.sum_congr rfl fun c _ => ?_)
  rw [hd c, hf c]

end Cert.KernelIdeal.Knn

end
-- ==== Proof.KArray.lean ====
/-
  The kernel's run, read as mathematics. The launch has 8 grid points, one per batch element: point `t` stages batch
  `t`'s query block, its searched points transposed, and its last searched point, and writes back batch `t`'s column of
  4096 distances. So the output array holds, at (b, s, 0), the accumulating form of the ball query of query `s` of
  batch `b` against batch `b`'s searched points, with the batch's last searched point as the fallback. The host
  operations after the launch drop the unit axis and take the scaled mean.
-/
import proofs.«166340_j12506944766668_2_alg».proof.Proof.KBody
import proofs.«166340_j12506944766668_2_alg».proof.Proof.KIter
import Idealize.ShloMosaic.Lib.StableHlo.Run
import Idealize.ShloMosaic.Lib.ValueIdx
import Idealize.ShloMosaic.Lib.ValueLayout
import Idealize.ShloMosaic.Lib.Pipeline.Value

set_option synthInstance.maxSize 4096
set_option maxRecDepth 16384

noncomputable section

namespace Cert.KernelIdeal.KArr

open Idealize.ShloMosaic Idealize.ShloMosaic.TcCoe Idealize.ShloMosaic.ValueIdx Idealize.SL.Sem
open Idealize.ShloMosaic.Pipeline (Dat Cfg)
open Cert.KernelIdeal Cert.KernelIdeal.Gen Cert.KernelIdeal.GenP Cert.KernelIdeal.Knn

variable (m : (ℓ : Loc nD τ sig) → Buf (Elt Ideal) ℓ) (ρ : Dev nD → PrngReg)

/-- The distance array as a function of the two argument arrays: entry (b, s, 0) is the accumulating form of the ball
    query of query `s` of batch `b`. -/
def distArr (X Y : S8x4096x3.Idx → EReal) : S8x4096x1.Idx → EReal := fun i =>
  Knn.accValue rho (fun c => X (ix3 (i 0) (i 1) c)) (fun n c => Y (ix3 (i 0) n c))
    (fun c => Y (ix3 (i 0) (⟨4095, by decide⟩ : Fin 4096) c))

/-! ## What the launch finds in its operand arrays -/

/-- The second operand is the searched points with their last two axes exchanged. -/
theorem V_transposed (c : Dev nD) :
    (V m c main_v0 : S8x3x4096.Idx → EReal)
      = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-- The third operand is each batch's last searched point, as a 1 × 3 row. -/
theorem V_lastRow (c : Dev nD) :
    (V m c main_v3 : S8x1x3.Idx → EReal)
      = broadcastInDim S8x1x3 ![0, 2] bcast_S8x3_S8x1x3_0_2
          (shapeCast S8x3 (extractStridedSlice S8x1x3 ![0, 4095, 0] (m ((c : Thread nD τ).loc main_arg1)) slices_S8x4096x3_S8x1x3_0_4095_0) shapeCasts_S8x1x3_S8x3) := by
  show StableHlo.after hostOps0 (fun b => m (c, b)) (Proc.devRef .tc main_v3) = _
  after_results
  rfl

/-! ## The blocks of a grid point -/

/-- Every window's block index at grid point `t` is (t, 0, 0): one batch element per point. -/
theorem blockIdx : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The grid point as a batch number. -/
def batchOf (t : Fin cfg0.N) : Fin 8 := ⟨t.val, by have h : cfg0.N = 8 := N_0; have := t.isLt; omega⟩

/-- The query block of point `t` is batch `t` of the first argument. -/
theorem iblk0_apply (c : Dev nD) (t : Fin cfg0.N) (s : Fin 4096) (d : Fin 3) :
    iblk m c 0 t (ix3 (0 : Fin 1) s d) = V m c main_arg0 (ix3 (batchOf t) s d) := by
  obtain ⟨⟨e0, e1, e2⟩, -⟩ := blockIdx t
  show V m c main_arg0 (((cfg0.win 0).blk t).view.emb (ix3 (0 : Fin 1) s d)) = _
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * s.val = s.val; omega
  | ⟨2, _⟩ => show win0_0.index t (2 : Fin 3) * 3 + 1 * d.val = d.val; omega

/-- The transposed block of point `t`, at (coordinate, point), is batch `t` of the second argument at (point, coordinate). -/
theorem iblk1_apply (c : Dev nD) (t : Fin cfg0.N) (d : Fin 3) (n : Fin 4096) :
    iblk m c 1 t (ix3 (0 : Fin 1) d n) = V m c main_arg1 (ix3 (batchOf t) n d) := by
  obtain ⟨-, ⟨e0, e1, e2⟩, -⟩ := blockIdx t
  have hemb : ((cfg0.win 1).blk t).view.emb (ix3 (0 : Fin 1) d n) = ix3 (batchOf t) d n := by
    refine funext fun a => Fin.ext ?_
    match a with
    | ⟨0, _⟩ => show win0_1.index t (0 : Fin 3) * 1 + 1 * 0 = t.val; omega
    | ⟨1, _⟩ => show win0_1.index t (1 : Fin 3) * 3 + 1 * d.val = d.val; omega
    | ⟨2, _⟩ => show win0_1.index t (2 : Fin 3) * 4096 + 1 * n.val = n.val; omega
  show V m c main_v0 (((cfg0.win 1).blk t).view.emb (ix3 (0 : Fin 1) d n)) = _
  rw [hemb, V_transposed, V_main_arg1]
  exact transpose_ix3_021_apply _ _ (batchOf t) d n

/-- The last-point block of point `t` is batch `t`'s searched point number 4095. -/
theorem iblk2_apply (c : Dev nD) (t : Fin cfg0.N) (d : Fin 3) :
    iblk m c 2 t (ix3 (0 : Fin 1) (0 : Fin 1) d) = V m c main_arg1 (ix3 (batchOf t) (⟨4095, by decide⟩ : Fin 4096) d) := by
  obtain ⟨-, -, ⟨e0, e1, e2⟩, -⟩ := blockIdx t
  have hemb : ((cfg0.win 2).blk t).view.emb (ix3 (0 : Fin 1) (0 : Fin 1) d) = ix3 (batchOf t) (0 : Fin 1) d := by
    refine funext fun a => Fin.ext ?_
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 3 + 1 * d.val = d.val; omega
  show V m c main_v3 (((cfg0.win 2).blk t).view.emb (ix3 (0 : Fin 1) (0 : Fin 1) d)) = _
  rw [hemb, V_lastRow, V_main_arg1]
  rw [broadcastInDim_apply _ bcast_S8x3_S8x1x3_0_2 _ (ix3 (batchOf t) (0 : Fin 1) d) (ix2 (batchOf t) d) (fun a => match a with
    | ⟨0, _⟩ => by show (batchOf t).val = if (8 : Nat) = 1 then 0 else (batchOf t).val; rw [if_neg (by decide)]
    | ⟨1, _⟩ => by show d.val = if (3 : Nat) = 1 then 0 else d.val; rw [if_neg (by decide)])]
  rw [shapeCast_apply _ shapeCasts_S8x1x3_S8x3 (ix2 (batchOf t) d) (ix3 (batchOf t) (0 : Fin 1) d) (by
    rw [Shape.rowMajor_val_two, Shape.rowMajor_val_three]
    show ((batchOf t).val * 1 + 0) * 3 + d.val = (batchOf t).val * 3 + d.val
    omega)]
  exact extractStridedSlice_apply ![0, 4095, 0] _ slices_S8x4096x3_S8x1x3_0_4095_0 (ix3 (batchOf t) (0 : Fin 1) d) (ix3 (batchOf t) (⟨4095, by decide⟩ : Fin 4096) d) (fun a => match a with
    | ⟨0, _⟩ => by show (batchOf t).val = 0 + (batchOf t).val; omega
    | ⟨1, _⟩ => by show 4095 = 4095 + 0; omega
    | ⟨2, _⟩ => by show d.val = 0 + d.val; omega)

/-! ## What a grid point writes back, and the array after the run -/

theorem offZero3 : (![0, 0, 0] : Fin 3 → Nat) = fun _ => 0 := funext fun a => by fin_cases a <;> rfl

/-- Grid point `t` writes back block `t` of the distance array of the two arguments as the launch finds them. -/
theorem flushed_eq (c : Dev nD) (t : Fin cfg0.N) :
    (dats m 0 c).flushed 3 t
      = ((cfg0.win 3).blk t).view.read (Elt Ideal) (distArr (V m c main_arg0) (V m c main_arg1)) := by
  obtain ⟨-, -, -, ⟨e0, e1, e2⟩⟩ := blockIdx t
  show (cfg0.win 3).cut (grid0.coords t) ((dats m 0 c).after 3 t) = _
  rw [after0_3, out_eq_bodyValue, View.canon_unit_zero offZero3]
  funext y
  obtain ⟨u, s, w, rfl⟩ : ∃ (u : Fin 1) (s : Fin 4096) (w : Fin 1), y = ix3 u s w := ⟨y 0, y 1, y 2, eq_ix3 y⟩
  obtain rfl : u = 0 := Subsingleton.elim _ _
  obtain rfl : w = 0 := Subsingleton.elim _ _
  have hemb : ((cfg0.win 3).blk t).view.emb (ix3 (0 : Fin 1) s (0 : Fin 1)) = ix3 (batchOf t) s (0 : Fin 1) := by
    refine funext fun a => Fin.ext ?_
    match a with
    | ⟨0, _⟩ => show win0_3.index t (0 : Fin 3) * 1 + 1 * 0 = t.val; omega
    | ⟨1, _⟩ => show win0_3.index t (1 : Fin 3) * 4096 + 1 * s.val = s.val; omega
    | ⟨2, _⟩ => show win0_3.index t (2 : Fin 3) * 1 + 1 * 0 = 0; omega
  show bodyValue (qBlock (iblk m c 0 t)) (pBlock (iblk m c 1 t)) (lBlock (iblk m c 2 t)) (ix3 (0 : Fin 1) s (0 : Fin 1))
    = distArr (V m c main_arg0) (V m c main_arg1) (((cfg0.win 3).blk t).view.emb (ix3 (0 : Fin 1) s (0 : Fin 1)))
  rw [bodyValue_apply, hemb]
  unfold distArr
  have hq : qrow (qBlock (iblk m c 0 t)) s = fun d => V m c main_arg0 (ix3 (batchOf t) s d) := by
    funext d
    show shapeCast S4096x3 (View.ld (iblk m c 0 t) r0_0) shapeCasts_S1x4096x3_S4096x3 (ix2 s d) = _
    rw [shapeCast_1ab_ab_apply, View.ld_unit_zero (S := S1x4096x3) offZero3]
    exact iblk0_apply m c t s d
  have hp : ppt (pBlock (iblk m c 1 t)) = fun n d => V m c main_arg1 (ix3 (batchOf t) n d) := by
    funext n d
    show shapeCast S3x4096 (View.ld (iblk m c 1 t) r0_1) shapeCasts_S1x3x4096_S3x4096 (ix2 d n) = _
    rw [shapeCast_1ab_ab_apply, View.ld_unit_zero (S := S1x3x4096) offZero3]
    exact iblk1_apply m c t d n
  have hl : (fun d => lBlock (iblk m c 2 t) (ix2 (0 : Fin 1) d)) = fun d => V m c main_arg1 (ix3 (batchOf t) (⟨4095, by decide⟩ : Fin 4096) d) := by
    funext d
    show shapeCast S1x3 (View.ld (iblk m c 2 t) r0_2) shapeCasts_S1x1x3_S1x3 (ix2 (0 : Fin 1) d) = _
    rw [shapeCast_1ab_ab_apply, View.ld_unit_zero (S := S1x1x3) offZero3]
    exact iblk2_apply m c t d
  rw [hq, hp, hl]

/-- An index of the output array lies in point `t`'s block exactly when each coordinate is in the block's range. -/
theorem mem_outBlock (t : Fin cfg0.N) (i : S8x4096x1.Idx) :
    i ∈ ((cfg0.win 3).blk t).view.set ↔ ∀ a : Fin 3, win0_3.index t a * S1x4096x1.size a ≤ (i a).val ∧ (i a).val < win0_3.index t a * S1x4096x1.size a + S1x4096x1.size a := by
  show i ∈ ((View.whole main_v4).slice (win0_3.rect t)).set ↔ _
  rw [View.set_slice_whole, Rect.mem_set_unit]
  exact Iff.rfl

/-- After the run the output array is the distance array: batch `b`'s column is written at grid point `b`. -/
theorem arrAfter (c : Dev nD) :
    (dats m 0 c).arrAt 3 cfg0.N = distArr (V m c main_arg0) (V m c main_arg1) :=
  (dats m 0 c).arrAt_eq_of_cover 3 _ (fun t _ => flushed_eq m c t) fun i => by
    have hN : cfg0.N = 8 := N_0
    have hi0 : (i 0).val < 8 := (i 0).isLt
    have hi1 : (i 1).val < 4096 := (i 1).isLt
    have hi2 : (i 2).val < 1 := (i 2).isLt
    refine ⟨⟨(i 0).val, by omega⟩, flush0_3 _, ?_⟩
    obtain ⟨-, -, -, ⟨e0, e1, e2⟩⟩ := blockIdx ⟨(i 0).val, by omega⟩
    rw [mem_outBlock]
    intro a
    match a with
    | ⟨0, _⟩ => show win0_3.index _ (0 : Fin 3) * 1 ≤ (i 0).val ∧ (i 0).val < win0_3.index _ (0 : Fin 3) * 1 + 1; simp only at e0; omega
    | ⟨1, _⟩ => show win0_3.index _ (1 : Fin 3) * 4096 ≤ (i 1).val ∧ (i 1).val < win0_3.index _ (1 : Fin 3) * 4096 + 4096; omega
    | ⟨2, _⟩ => show win0_3.index _ (2 : Fin 3) * 1 ≤ (i 2).val ∧ (i 2).val < win0_3.index _ (2 : Fin 3) * 1 + 1; omega

/-! ## The run, read through the host operations after the launch -/

/-- The mean of the 8 × 4096 distances, divided by 4096 and multiplied by 24: the host operations that end the program. -/
def meanScaled (D : S8x4096.Idx → EReal) : S_.Idx → EReal :=
  mulf (Host.divf (Host.divf (Host.reduceAdd D (constant (F := Ideal) S_ .f32 0x00000000#32) reducesTo_S8x4096_S_d0_1 h_S_)
    (constant (F := Ideal) S_ .f32 0x47000000#32)) (constant (F := Ideal) S_ .f32 0x45800000#32)) (constant (F := Ideal) S_ .f32 0x41C00000#32)

/-- The program's result after the launch: the scaled mean of the distance array with its unit axis dropped. -/
theorem tail_eq (c : Dev nD) :
    Pipeline.afterTail₀ cfgs (dats m) 0 (V0 m) [hostOps1] c main_v9
      = meanScaled (shapeCast S8x4096 (distArr (V m c main_arg0) (V m c main_arg1)) shapeCasts_S8x4096x1_S8x4096) := by
  unfold Pipeline.afterTail₀
  show StableHlo.after hostOps1 _ (Proc.devRef .tc main_v9) = _
  after_results
  rw [Pipeline.withArrays_arr spec0 launch0.win.arr_inj c _ _ 3, arrAfter]
  rfl

/-- Every execution of the kernel program ends with the scaled mean of the distance array of its two arguments in the
    result, and the arguments unchanged. -/
theorem run : θ_run defs (onTc (τ := τ) (main (F := Ideal))) ⟨m, fun _ => 0, ρ⟩ fun r => ∀ c : Dev nD,
      r.2.mem ((c.tc : Thread nD τ).loc main_v9)
        = meanScaled (shapeCast S8x4096 (distArr (m ((c.tc : Thread nD τ).loc main_arg0)) (m ((c.tc : Thread nD τ).loc main_arg1))) shapeCasts_S8x4096x1_S8x4096)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨by
      rw [(h c).2 main_v9 (Pipeline.mem_restRefs_of main_v9 (by decide) (by decide)), tail_eq, V_main_arg0, V_main_arg1],
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KArr

end
-- ==== Proof.RefGen.lean ====
/-
  The reference's run and its stages: this module only gathers the two readings of the reference program so that the
  modules about the reference's mathematics can import them in one line.
-/
import proofs.«166340_j12506944766668_2_alg».proof.Proof.RunP
import proofs.«166340_j12506944766668_2_alg».proof.Proof.ReadP
-- ==== Proof.RefKey.lean ====
/-
  The reference's sort key. For batch `b`, query `s` and searched point `n` the reference computes the squared distance
  in expanded form (the two squared norms minus twice the inner product), compares it with the squared radius, and keys
  the point by its own index when it lies in the ball and by the sentinel 4096 when it does not.
-/
import proofs.«166340_j12506944766668_2_alg».proof.Proof.RefGen
import proofs.«166340_j12506944766668_2_alg».proof.Proof.KnnSpec
import Idealize.ShloMosaic.Lib.ValueIdx
import Idealize.ShloMosaic.Lib.Pipeline.Value
import Idealize.ShloMosaic.PureOps.Ideal.Laws

noncomputable section

namespace Cert.ReferenceIdeal.Knn

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo

/-- The squared radius, the program's word read as an extended real. -/
abbrev rho : EReal := Ideal.ofBits .f32 0x3C23D70A#32

/-- Query `s` of batch `b`. -/
abbrev qpt (X : FVec Ideal S8x4096x3 .f32) (b : Fin 8) (s : Fin 4096) : Fin 3 → EReal := fun c => X (ix3 b s c)

/-- The searched points of batch `b`. -/
abbrev spts (Y : FVec Ideal S8x4096x3 .f32) (b : Fin 8) : Fin 4096 → Fin 3 → EReal := fun n c => Y (ix3 b n c)

/-! ## Words as extended reals -/

/-- The word of `2.0` denotes `2`. -/
theorem ofBits_two : Ideal.ofBits .f32 0x40000000#32 = 2 := by
  simp [Ideal.ofBits, Ideal.ieee, -EReal.coe_mul]; norm_num
  first | rfl | norm_cast | exact EReal.coe_ofNat _

/-! ## The three sums of the expanded squared distance -/

/-- The query's squared norm, spread over the searched points. -/
theorem v6_ix (X : FVec Ideal S8x4096x3 .f32) (b : Fin 8) (s n : Fin 4096) :
    val_main_v6 (F := Ideal) X (ix3 b s n) = ∑ c : Fin 3, X (ix3 b s c) * X (ix3 b s c) := by
  rw [val_main_v6_apply, val_main_v2_apply, val_main_v1_apply, val_main_cst_apply]
  show Ideal.ofBits .f32 0x00000000#32 + _ = _
  rw [Ideal.ofBits_zero_f32, zero_add]
  refine Finset.sum_congr rfl fun c _ => ?_
  have e : idx_main_v1 (idx_main_v2 (idx_main_v6 (ix3 b s n))) c = ix3 b s c :=
    funext fun a => Fin.ext (by match a with | ⟨0, _⟩ => rfl | ⟨1, _⟩ => rfl | ⟨2, _⟩ => rfl)
  rw [val_main_v0_apply, e]
  rfl

/-- The searched point's squared norm, spread over the queries. -/
theorem v7_ix (Y : FVec Ideal S8x4096x3 .f32) (b : Fin 8) (s n : Fin 4096) :
    val_main_v7 (F := Ideal) Y (ix3 b s n) = ∑ c : Fin 3, Y (ix3 b n c) * Y (ix3 b n c) := by
  rw [val_main_v7_apply, val_main_v5_apply, val_main_v4_apply, val_main_cst_0_apply]
  show Ideal.ofBits .f32 0x00000000#32 + _ = _
  rw [Ideal.ofBits_zero_f32, zero_add]
  refine Finset.sum_congr rfl fun c _ => ?_
  have e : idx_main_v4 (idx_main_v5 (idx_main_v7 (ix3 b s n))) c = ix3 b n c :=
    funext fun a => Fin.ext (by match a with | ⟨0, _⟩ => rfl | ⟨1, _⟩ => rfl | ⟨2, _⟩ => rfl)
  rw [val_main_v3_apply, e]
  rfl

/-- The inner product of the query and the searched point. -/
theorem v9_ix (X Y : FVec Ideal S8x4096x3 .f32) (b : Fin 8) (s n : Fin 4096) :
    val_main_v9 (F := Ideal) X Y (ix3 b s n) = ∑ c : Fin 3, X (ix3 b s c) * Y (ix3 b n c) := by
  rw [val_main_v9_apply]
  refine Finset.sum_congr rfl fun c _ => ?_
  have el : lidx_main_v9 (ix3 b s n) c = ix3 b s c :=
    funext fun a => Fin.ext (by match a with | ⟨0, _⟩ => rfl | ⟨1, _⟩ => rfl | ⟨2, _⟩ => rfl)
  have er : ridx_main_v9 (ix3 b s n) c = ix3 b n c :=
    funext fun a => Fin.ext (by match a with | ⟨0, _⟩ => rfl | ⟨1, _⟩ => rfl | ⟨2, _⟩ => rfl)
  rw [el, er]

/-- The factor of the inner product is `2` everywhere. -/
theorem v10_ix (i : S8x4096x4096.Idx) : val_main_v10 (F := Ideal) i = (2 : EReal) := by
  rw [val_main_v10_apply, val_main_cst_1_apply]
  exact ofBits_two

/-- The squared distance the reference compares with the radius is the expanded form. -/
theorem val_main_v12_ix (X Y : FVec Ideal S8x4096x3 .f32) (b : Fin 8) (s n : Fin 4096) :
    val_main_v12 (F := Ideal) X Y (ix3 b s n) = Knn.sqExpand (qpt X b s) (spts Y b n) := by
  rw [val_main_v12_apply, val_main_v8_apply, val_main_v11_apply, v6_ix, v7_ix, v9_ix, v10_ix]
  rfl

/-- The sort key: the point's index inside the ball, the sentinel 4096 outside. -/
theorem val_main_v17_ix (X Y : FVec Ideal S8x4096x3 .f32) (b : Fin 8) (s n : Fin 4096) :
    val_main_v17 (F := Ideal) X Y (ix3 b s n)
      = if rho < Knn.sqExpand (qpt X b s) (spts Y b n) then 4096#32 else BitVec.ofNat 32 n.val := by
  rw [val_main_v17_apply, val_main_v16_apply, val_main_v12_ix, val_main_v15_apply, val_main_cst_2_apply,
    val_main_call0_v1_apply, val_main_call0_v0_apply, val_main_c_apply, val_main_v14_apply, val_main_v13_apply]
  show Scalar.select (BitVec.ofBool (decide (rho < Knn.sqExpand (qpt X b s) (spts Y b n)))) 4096#32 (BitVec.ofNat 32 n.val) = _
  by_cases h : rho < Knn.sqExpand (qpt X b s) (spts Y b n)
  · rw [if_pos h, decide_eq_true h]
    exact select_one _ _
  · rw [if_neg h, decide_eq_false h]
    exact select_zero _ _

end Cert.ReferenceIdeal.Knn

end
-- ==== Proof.LibSort.lean ====
/-
  A stable sort of 32-bit words along one axis, by the signed "less than" comparator, read along a fiber:
  the sorted fiber is the operand's fiber through a bijection of the positions, and it is monotone as signed integers.
-/
import Idealize.ShloMosaic.Lib.SortFacts

namespace Idealize.ShloMosaic

/-- Moving twice along the same axis keeps only the last position. -/
theorem Shape.Idx.along_along {s : Shape} (j : s.Idx) (a : Fin s.rank) (k k' : Fin (s.size a)) :
    (j.along a k).along a k' = j.along a k' := by
  unfold Shape.Idx.along
  exact Function.update_idem _ _ _

/-- The coordinate along the axis of the moved index is the new position. -/
theorem Shape.Idx.along_self {s : Shape} (j : s.Idx) (a : Fin s.rank) (k : Fin (s.size a)) :
    (j.along a k) a = k := by
  unfold Shape.Idx.along
  exact Function.update_self ..

/-- The sort at position `k` of the fiber through `j` reads the operand at the position the stable sorting
    permutation of that fiber (under "the comparator says before") sends `k` to. -/
theorem Host.sort_along (s : Shape) (d : ℕ) (hd : d < s.rank) {α : Type} (cmp : α → α → BitVec 1)
    (x : s.Idx → α) (j : s.Idx) (k : Fin (s.size ⟨d, hd⟩)) :
    Host.sort s d cmp x (j.along ⟨d, hd⟩ k)
      = x (j.along ⟨d, hd⟩
          (sortedFrom (fun k k' => cmp (x (j.along ⟨d, hd⟩ k)) (x (j.along ⟨d, hd⟩ k')) == 1#1) k)) := by
  unfold Host.sort
  rw [dif_pos hd]
  simp only [Shape.Idx.along_along, Shape.Idx.along_self]

/-- Along the fiber through `j`, the sorted array is the operand read through a bijection of the axis' positions, and
    its entries increase (weakly) as signed integers. -/
theorem Host.sort_fiber (s : Shape) (d : ℕ) (hd : d < s.rank) (cmp : BitVec 32 → BitVec 32 → BitVec 1)
    (hcmp : ∀ l r, (cmp l r == 1#1) = decide (l.toInt < r.toInt)) (x : s.Idx → BitVec 32) (j : s.Idx) :
    ∃ σ : Fin (s.size ⟨d, hd⟩) → Fin (s.size ⟨d, hd⟩), Function.Bijective σ
      ∧ (∀ k, Host.sort s d cmp x (j.along ⟨d, hd⟩ k) = x (j.along ⟨d, hd⟩ (σ k)))
      ∧ (∀ k k', k ≤ k' → (Host.sort s d cmp x (j.along ⟨d, hd⟩ k)).toInt ≤ (Host.sort s d cmp x (j.along ⟨d, hd⟩ k')).toInt) := by
  -- the fiber's "before" relation: a strict order pulled back along the signed value
  let before : Fin (s.size ⟨d, hd⟩) → Fin (s.size ⟨d, hd⟩) → Bool :=
    fun k k' => cmp (x (j.along ⟨d, hd⟩ k)) (x (j.along ⟨d, hd⟩ k')) == 1#1
  have hbefore : ∀ k k', before k k'
      = decide ((x (j.along ⟨d, hd⟩ k)).toInt < (x (j.along ⟨d, hd⟩ k')).toInt) := fun k k' => hcmp _ _
  have hval : ∀ k, Host.sort s d cmp x (j.along ⟨d, hd⟩ k) = x (j.along ⟨d, hd⟩ (sortedFrom before k)) :=
    fun k => Host.sort_along s d hd cmp x j k
  refine ⟨sortedFrom before, ⟨sortedFrom_injective before, sortedFrom_surjective before⟩, hval, ?_⟩
  intro k k' hkk'
  rw [hval, hval]
  rcases eq_or_lt_of_le hkk' with rfl | hlt
  · exact le_refl _
  · -- a strict order is asymmetric and negatively transitive, so the sorted positions carry no inversion
    have h := sortedFrom_noInversion before before
      (fun a b h => by
        rw [hbefore] at h ⊢
        simp only [decide_eq_true_eq, decide_eq_false_iff_not] at h ⊢
        omega)
      (fun _ _ h => h)
      (fun a b c h₁ h₂ => by
        rw [hbefore] at h₁ h₂ ⊢
        simp only [decide_eq_false_iff_not] at h₁ h₂ ⊢
        omega)
      k k' hlt
    rw [hbefore] at h
    simp only [decide_eq_false_iff_not, not_lt] at h
    exact h

end Idealize.ShloMosaic
-- ==== Proof.LibTopK.lean ====
/-
  Taking the first K marked positions of `Fin N`, in increasing order, padded with the first one.

  `v` marks positions. `sel v` lists the marked positions in increasing order, `rank v n` counts the marked positions up
  to and including `n`, `count v` counts them all. Two facts:

  * `sum_getD`: summing `f` over the first `K` entries of `sel v`, a missing entry replaced by the list's head (by `d` for
    an empty list), is the sum of `f` over the marked positions of rank at most `K`, plus `K - count v` (truncated) copies
    of `f` at the head — the marked position of rank 1 — or at `d` when nothing is marked;
  * `sorted_rearrangement`: a monotone sequence that rearranges the keys "the position itself where marked, `N` where
    not" lists the marked positions in increasing order and then `N`.
-/
import Mathlib.Data.List.GetD
import Mathlib.Data.List.Sort
import Mathlib.Data.List.FinRange
import Mathlib.Data.Fintype.Card
import Mathlib.Algebra.BigOperators.Fin
import Mathlib.Data.Real.Basic

namespace TopK

variable {N : ℕ}

/-- The marked positions in increasing order. -/
def sel (v : Fin N → Bool) : List (Fin N) := (List.finRange N).filter v

/-- How many marked positions lie at or before `n`. -/
def rank (v : Fin N → Bool) (n : Fin N) : ℕ := (Finset.univ.filter fun n' : Fin N => n' ≤ n ∧ v n' = true).card

/-- How many positions are marked. -/
def count (v : Fin N → Bool) : ℕ := (Finset.univ.filter fun n' : Fin N => v n' = true).card

/-- The marked list is strictly increasing: it is a sublist of the strictly increasing list of all positions. -/
theorem sortedLT_sel (v : Fin N → Bool) : (sel v).SortedLT :=
  ((List.sortedLT_finRange N).pairwise.filter _).sortedLT

/-- A position is in the marked list exactly when it is marked. -/
theorem mem_sel {v : Fin N → Bool} {n : Fin N} : n ∈ sel v ↔ v n = true := by
  simp [sel]

theorem nodup_sel (v : Fin N → Bool) : (sel v).Nodup := (sortedLT_sel v).nodup

/-- As a finite set the marked list is the set of marked positions. -/
theorem toFinset_sel (v : Fin N → Bool) :
    (sel v).toFinset = Finset.univ.filter fun n : Fin N => v n = true := by
  ext n
  simp [mem_sel]

theorem length_sel (v : Fin N → Bool) : (sel v).length = count v := by
  rw [count, ← toFinset_sel, List.toFinset_card_of_nodup (nodup_sel v)]

/-- The entry at index `i` of the marked list has rank `i + 1`: the marked positions at or before it are exactly
    the first `i + 1` entries of a strictly increasing list. -/
theorem rank_getElem (v : Fin N → Bool) (i : ℕ) (hi : i < (sel v).length) :
    rank v ((sel v)[i]) = i + 1 := by
  have hs := sortedLT_sel v
  have hset : (Finset.univ.filter fun n' : Fin N => n' ≤ (sel v)[i] ∧ v n' = true)
      = ((sel v).take (i + 1)).toFinset := by
    ext n'
    simp only [Finset.mem_filter, Finset.mem_univ, true_and, List.mem_toFinset, List.mem_take_iff_getElem]
    constructor
    · rintro ⟨hle, hv⟩
      obtain ⟨j, hj, rfl⟩ := List.getElem_of_mem (mem_sel.2 hv)
      have hji : j ≤ i := hs.getElem_le_getElem_iff.1 hle
      exact ⟨j, by omega, rfl⟩
    · rintro ⟨j, hj, rfl⟩
      have hj' : j < (sel v).length := by omega
      exact ⟨hs.getElem_le_getElem_iff.2 (by omega), mem_sel.1 (List.getElem_mem hj')⟩
  rw [rank, hset, List.toFinset_card_of_nodup ((nodup_sel v).sublist (List.take_sublist _ _)), List.length_take]
  omega

/-- A sum over the marked positions is a sum over the indices of the marked list. -/
theorem sum_marked (v : Fin N → Bool) (h : Fin N → ℝ) :
    (∑ n : Fin N, if v n = true then h n else 0) = ∑ i : Fin (sel v).length, h ((sel v)[i.1]) := by
  rw [Fin.sum_univ_fun_getElem, ← List.sum_toFinset _ (nodup_sel v), toFinset_sel, Finset.sum_filter]

/-- A sum over the marked positions whose rank satisfies `P`, read off the marked list, whose entry at index `i` has
    rank `i + 1`. -/
theorem sum_marked_rank (v : Fin N → Bool) (P : ℕ → Prop) [DecidablePred P] (f : Fin N → ℝ) (d : Fin N) :
    (∑ n : Fin N, if v n = true ∧ P (rank v n) then f n else 0)
      = ∑ i ∈ Finset.range (sel v).length, if P (i + 1) then f ((sel v).getD i d) else 0 := by
  simp only [ite_and]
  rw [sum_marked v (fun n => if P (rank v n) then f n else 0),
    ← Fin.sum_univ_eq_sum_range (fun i => if P (i + 1) then f ((sel v).getD i d) else 0)]
  refine Finset.sum_congr rfl fun i _ => ?_
  rw [rank_getElem v i.1 i.2, List.getD_eq_getElem _ _ i.2]

/-- A sequence that is constant `H` from index `c` on: its first `K` terms are those of its first `c` terms whose
    index is below `K`, and `K - c` copies of `H`. -/
theorem sum_range_pad (F : ℕ → ℝ) (c K : ℕ) (H : ℝ) (hF : ∀ k, c ≤ k → F k = H) :
    ∑ k ∈ Finset.range K, F k
      = (∑ i ∈ Finset.range c, if i + 1 ≤ K then F i else 0) + ((K - c : ℕ) : ℝ) * H := by
  rcases le_total K c with h | h
  · obtain ⟨m, rfl⟩ := Nat.exists_eq_add_of_le h
    have h1 : ∀ i ∈ Finset.range K, (if i + 1 ≤ K then F i else 0) = F i :=
      fun i hi => if_pos (Finset.mem_range.1 hi)
    have h2 : ∀ i ∈ Finset.range m, (if K + i + 1 ≤ K then F (K + i) else 0) = 0 :=
      fun i _ => if_neg (by omega)
    rw [Finset.sum_range_add, Nat.sub_eq_zero_of_le h, Finset.sum_congr rfl h1, Finset.sum_congr rfl h2]
    simp
  · obtain ⟨m, rfl⟩ := Nat.exists_eq_add_of_le h
    have h1 : ∀ i ∈ Finset.range c, (if i + 1 ≤ c + m then F i else 0) = F i :=
      fun i hi => if_pos (by have := Finset.mem_range.1 hi; omega)
    have h2 : ∀ i ∈ Finset.range m, F (c + i) = H := fun i _ => hF _ (by omega)
    rw [Finset.sum_range_add, Finset.sum_congr rfl h1, Finset.sum_congr rfl h2]
    simp

/-- The first `K` entries of the marked list, padded with its head, sum to the marked positions of rank at most `K`
    plus the padding. -/
theorem sum_getD (v : Fin N → Bool) (K : ℕ) (f : Fin N → ℝ) (d : Fin N) :
    ∑ k : Fin K, f ((sel v).getD k.val ((sel v).headD d))
      = (∑ n : Fin N, if v n = true ∧ rank v n ≤ K then f n else 0)
        + ((K - count v : ℕ) : ℝ) * (if count v = 0 then f d else ∑ n : Fin N, if v n = true ∧ rank v n = 1 then f n else 0) := by
  have hc : count v = (sel v).length := (length_sel v).symm
  rw [Fin.sum_univ_eq_sum_range (fun k => f ((sel v).getD k ((sel v).headD d))) K,
    sum_marked_rank v (· ≤ K) f ((sel v).headD d), sum_marked_rank v (· = 1) f ((sel v).headD d), hc]
  -- the padding value is `f` at the head of the list, or at `d` for the empty list
  have hpad : (if (sel v).length = 0 then f d
      else ∑ i ∈ Finset.range (sel v).length, if i + 1 = 1 then f ((sel v).getD i ((sel v).headD d)) else 0)
        = f ((sel v).headD d) := by
    generalize sel v = l
    cases l with
    | nil => simp
    | cons x t =>
      rw [if_neg (by simp), List.length_cons, Finset.sum_range_succ']
      simp
  rw [hpad]
  exact sum_range_pad _ _ _ _ (fun k hk => by rw [List.getD_eq_default _ _ hk])

/-- Padding a list with copies of the default does not change its entries read with that default. -/
theorem getD_append_replicate (L : List ℕ) (m x k : ℕ) :
    (L ++ List.replicate m x).getD k x = L.getD k x := by
  rcases lt_or_ge k L.length with h | h
  · exact List.getD_append _ _ _ _ h
  · rw [List.getD_append_right _ _ _ _ h, List.getD_eq_default _ _ h]
    rcases lt_or_ge (k - L.length) m with h' | h'
    · exact List.getD_replicate _ h'
    · exact List.getD_eq_default _ _ (by simpa using h')

/-- A monotone rearrangement of the keys (the position where marked, `N` where not) is the marked list followed by `N`. -/
theorem sorted_rearrangement (v : Fin N → Bool) (a : Fin N → ℕ) (σ : Fin N → Fin N) (hσ : Function.Bijective σ)
    (ha : ∀ k, a k = if v (σ k) = true then (σ k).val else N) (hmono : ∀ i j : Fin N, i ≤ j → a i ≤ a j) (k : Fin N) :
    a k = ((sel v).map Fin.val).getD k.val N := by
  -- the keys, listed by position: the marked positions, then the unmarked ones, which all carry the key `N`
  let key : Fin N → ℕ := fun n => if v n = true then n.val else N
  have hakey : a = key ∘ σ := funext fun k => ha k
  have hB : (List.ofFn key).Perm
      ((sel v).map Fin.val ++ List.replicate ((List.finRange N).filter fun n => !v n).length N) := by
    rw [List.ofFn_eq_map]
    refine ((List.filter_append_perm v (List.finRange N)).symm.map key).trans ?_
    have h1 : ((List.finRange N).filter v).map key = (sel v).map Fin.val :=
      List.map_congr_left fun n hn => if_pos (mem_sel.1 hn)
    have h2 : ((List.finRange N).filter fun n => !v n).map key
        = List.replicate ((List.finRange N).filter fun n => !v n).length N := by
      rw [List.eq_replicate_iff]
      refine ⟨by simp, fun b hb => ?_⟩
      obtain ⟨n, hn, rfl⟩ := List.mem_map.1 hb
      have hvn : v n = false := by simpa using (List.mem_filter.1 hn).2
      simp [key, hvn]
    rw [List.map_append, h1, h2]
  -- the sequence `a` lists the same keys in another order
  have hA : (List.ofFn a).Perm (List.ofFn key) := by
    rw [hakey]
    exact Equiv.Perm.ofFn_comp_perm (Equiv.ofBijective σ hσ) key
  -- both lists are sorted, so they are equal
  have hsA : (List.ofFn a).SortedLE := List.sortedLE_ofFn_iff.2 fun i j h => hmono i j h
  have hsB : ((sel v).map Fin.val
      ++ List.replicate ((List.finRange N).filter fun n => !v n).length N).SortedLE := by
    rw [List.sortedLE_iff_pairwise, List.pairwise_append]
    refine ⟨(sortedLT_sel v).pairwise.map _ fun x y h => Fin.le_iff_val_le_val.1 (le_of_lt h),
      (List.sortedLE_replicate _).pairwise, ?_⟩
    intro x hx y hy
    obtain ⟨n, _, rfl⟩ := List.mem_map.1 hx
    rw [List.eq_of_mem_replicate hy]
    exact n.2.le
  have hEq := (hA.trans hB).eq_of_sortedLE hsA hsB
  have hk : a k = (List.ofFn a).getD k.val N := by
    rw [List.getD_eq_getElem _ _ (by simp), List.getElem_ofFn]
  rw [hk, hEq, getD_append_replicate]

end TopK
-- ==== Proof.RefIdx.lean ====
/-
  The reference's selected indices. The keys of one query are sorted increasingly; the first 16 sorted keys are kept; a
  kept key that is the sentinel 4096 is replaced by the first sorted key; the result is capped at 4095. So entry `k` is
  the k-th in-ball index in increasing order, a missing one replaced by the first in-ball index, and index 4095 for
  an empty ball.
-/
import proofs.«166340_j12506944766668_2_alg».proof.Proof.RefKey
import proofs.«166340_j12506944766668_2_alg».proof.Proof.LibSort
import proofs.«166340_j12506944766668_2_alg».proof.Proof.LibTopK
import Idealize.ShloMosaic.Lib.Affine

noncomputable section

namespace Cert.ReferenceIdeal.Knn

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo

/-- A natural number up to 4096 is its own 32-bit word's value. -/
theorem toNat_ofNat_le (n : ℕ) (hn : n ≤ 4096) : (BitVec.ofNat 32 n).toNat = n := by
  rw [BitVec.toNat_ofNat]
  exact Nat.mod_eq_of_lt (by omega)

/-- A word whose value is at most 4096 is nonnegative as a signed integer. -/
theorem toInt_of_toNat_le (w : BitVec 32) (hw : w.toNat ≤ 4096) : w.toInt = (w.toNat : ℤ) :=
  BitVec.toInt_eq_toNat_of_lt (by omega)

/-- An entry of a list of positions below 4096, read with the default 4096, is at most 4096. -/
theorem getD_map_val_le (L : List (Fin 4096)) (j : ℕ) : (L.map Fin.val).getD j 4096 ≤ 4096 := by
  rcases lt_or_ge j (L.map Fin.val).length with h | h
  · rw [List.getD_eq_getElem _ _ h, List.getElem_map]
    exact (L[j]'(by simpa using h)).2.le
  · rw [List.getD_eq_default _ _ h]

/-- Sorted keys. The keys of the positions are "the position where marked, 4096 where not"; a sequence of words that
    lists these keys through a bijection of the positions and increases as signed integers is the marked list followed
    by 4096. -/
theorem sorted_keys (v : Fin 4096 → Bool) (key W : Fin 4096 → BitVec 32)
    (hkey : ∀ n, key n = if v n = true then BitVec.ofNat 32 n.val else 4096#32)
    (σ : Fin 4096 → Fin 4096) (hσ : Function.Bijective σ) (hW : ∀ k, W k = key (σ k))
    (hmono : ∀ k k', k ≤ k' → (W k).toInt ≤ (W k').toInt) (k : Fin 4096) :
    W k = BitVec.ofNat 32 (((TopK.sel v).map Fin.val).getD k.val 4096) := by
  have ha : ∀ k, (W k).toNat = if v (σ k) = true then (σ k).val else 4096 := by
    intro k
    rw [hW, hkey]
    by_cases h : v (σ k) = true
    · rw [if_pos h, if_pos h, toNat_ofNat_le _ (σ k).2.le]
    · rw [if_neg h, if_neg h]
      rfl
  have hle : ∀ k, (W k).toNat ≤ 4096 := by
    intro k
    rw [ha]
    split
    · exact (σ k).2.le
    · exact le_refl _
  have hm : ∀ i j : Fin 4096, i ≤ j → (W i).toNat ≤ (W j).toNat := by
    intro i j hij
    have := hmono i j hij
    rw [toInt_of_toNat_le _ (hle i), toInt_of_toNat_le _ (hle j)] at this
    exact_mod_cast this
  have hk := TopK.sorted_rearrangement v (fun k => (W k).toNat) σ hσ ha hm k
  apply BitVec.eq_of_toNat_eq
  rw [toNat_ofNat_le _ (getD_map_val_le _ _)]
  exact hk

/-- The signed minimum with 4095 of a word of value at most 4096 caps the value at 4095. -/
theorem minsi_cap (n : ℕ) (hn : n ≤ 4096) :
    IntOp.minsi (BitVec.ofNat 32 n) 4095#32 = BitVec.ofNat 32 (min n 4095) := by
  have h1 : (BitVec.ofNat 32 n).toInt = (n : ℤ) := by
    rw [toInt_of_toNat_le _ (by rw [toNat_ofNat_le n hn]; exact hn), toNat_ofNat_le n hn]
  have h2 : (4095#32 : BitVec 32).toInt = 4095 := by decide
  unfold IntOp.minsi
  by_cases h : n < 4095
  · rw [if_pos (by rw [BitVec.slt_iff_toInt_lt, h1, h2]; omega), Nat.min_eq_left (by omega)]
  · rw [if_neg (by rw [BitVec.slt_iff_toInt_lt, h1, h2]; omega), Nat.min_eq_right (by omega)]

/-- The selection step on words. With `g j` the `j`-th sorted key (the marked list followed by 4096): a key equal to
    the sentinel 4096 is replaced by the first key, and the result is capped at 4095. This is entry `k` of the marked
    list, a missing entry replaced by the list's head, and that by 4095. -/
theorem pick_word (L : List (Fin 4096)) (k : Fin 16) :
    IntOp.minsi
        (Scalar.select (IntOp.cmpi .eq (BitVec.ofNat 32 ((L.map Fin.val).getD k.val 4096)) 4096#32)
          (BitVec.ofNat 32 ((L.map Fin.val).getD 0 4096)) (BitVec.ofNat 32 ((L.map Fin.val).getD k.val 4096)))
        4095#32
      = BitVec.ofNat 32 (Knn.pickIdx L k).val := by
  unfold Knn.pickIdx Scalar.select
  rcases lt_or_ge k.val L.length with h | h
  · -- the entry exists: it is below 4096, hence not the sentinel, and the cap keeps it
    have hg : (L.map Fin.val).getD k.val 4096 = (L[k.val]).val := by
      rw [List.getD_eq_getElem _ _ (by simpa using h), List.getElem_map]
    have hlt : (L[k.val]).val < 4096 := (L[k.val]).2
    have hne : ¬ IntOp.cmpi .eq (BitVec.ofNat 32 (L[k.val]).val) 4096#32 = 1 := by
      show ¬ _ = 1#1
      rw [IntOp.cmpi_eq]
      intro heq
      have := congrArg BitVec.toNat heq
      rw [toNat_ofNat_le _ hlt.le] at this
      have h4096 : (4096#32 : BitVec 32).toNat = 4096 := rfl
      omega
    rw [hg, if_neg hne, minsi_cap _ hlt.le, Nat.min_eq_left (by omega), List.getD_eq_getElem _ _ h]
  · -- the entry is missing: the key is the sentinel and is replaced by the first key
    have hg : (L.map Fin.val).getD k.val 4096 = 4096 := List.getD_eq_default _ _ (by simpa using h)
    have heq : IntOp.cmpi .eq (BitVec.ofNat 32 4096) 4096#32 = 1 := IntOp.cmpi_eq.2 rfl
    rw [hg, if_pos heq, List.getD_eq_default _ _ h]
    cases L with
    | nil => exact minsi_cap 4096 (le_refl _)
    | cons x t =>
      have hx : x.val < 4096 := x.2
      show IntOp.minsi (BitVec.ofNat 32 x.val) 4095#32 = BitVec.ofNat 32 x.val
      rw [minsi_cap _ hx.le, Nat.min_eq_left (by omega)]

/-- The sort's comparator says "before" exactly when the left word is smaller as a signed integer. -/
theorem comparator_reads (l r : BitVec 32) :
    (comparator_i32_d2 l r == 1#1) = decide (l.toInt < r.toInt) := by
  have h : comparator_i32_d2 l r = IntOp.cmpi .slt l r := rfl
  rw [h, Bool.eq_iff_iff, beq_iff_eq, decide_eq_true_eq]
  exact IntOp.cmpi_slt

/-- Moving along the last axis of a rank-3 index replaces its last coordinate. -/
theorem along_ix3 (b : Fin 8) (s k : Fin 4096) (hd : 2 < S8x4096x4096.rank) (k' : Fin 4096) :
    Shape.Idx.along (s := S8x4096x4096) (ix3 b s k) ⟨2, hd⟩ k' = ix3 b s k' := by
  funext a
  unfold Shape.Idx.along
  match a with
  | ⟨0, _⟩ => exact Function.update_of_ne (Fin.ne_of_val_ne (show (0 : ℕ) ≠ 2 by decide)) _ _
  | ⟨1, _⟩ => exact Function.update_of_ne (Fin.ne_of_val_ne (show (1 : ℕ) ≠ 2 by decide)) _ _
  | ⟨2, _⟩ => exact Function.update_self ..

/-- The sort along the last axis, read on the fiber of one query: the operand's fiber through a bijection of the
    positions, increasing as signed integers. -/
theorem sort_fiber_ix3 (K : S8x4096x4096.Idx → BitVec 32) (b : Fin 8) (s : Fin 4096) :
    ∃ σ : Fin 4096 → Fin 4096, Function.Bijective σ
      ∧ (∀ k : Fin 4096, Host.sort S8x4096x4096 2 comparator_i32_d2 K (ix3 b s k) = K (ix3 b s (σ k)))
      ∧ (∀ k k' : Fin 4096, k ≤ k' →
          (Host.sort S8x4096x4096 2 comparator_i32_d2 K (ix3 b s k)).toInt
            ≤ (Host.sort S8x4096x4096 2 comparator_i32_d2 K (ix3 b s k')).toInt) := by
  have hd : 2 < S8x4096x4096.rank := by decide
  obtain ⟨σ, hσ, hval, hmono⟩ : ∃ σ : Fin 4096 → Fin 4096, Function.Bijective σ
      ∧ (∀ k : Fin 4096,
          Host.sort S8x4096x4096 2 comparator_i32_d2 K
              (Shape.Idx.along (s := S8x4096x4096) (ix3 b s (0 : Fin 4096)) ⟨2, hd⟩ k)
            = K (Shape.Idx.along (s := S8x4096x4096) (ix3 b s (0 : Fin 4096)) ⟨2, hd⟩ (σ k)))
      ∧ (∀ k k' : Fin 4096, k ≤ k' →
          (Host.sort S8x4096x4096 2 comparator_i32_d2 K
              (Shape.Idx.along (s := S8x4096x4096) (ix3 b s (0 : Fin 4096)) ⟨2, hd⟩ k)).toInt
            ≤ (Host.sort S8x4096x4096 2 comparator_i32_d2 K
              (Shape.Idx.along (s := S8x4096x4096) (ix3 b s (0 : Fin 4096)) ⟨2, hd⟩ k')).toInt) :=
    Host.sort_fiber S8x4096x4096 2 hd comparator_i32_d2 comparator_reads K (ix3 b s (0 : Fin 4096))
  refine ⟨σ, hσ, fun k => ?_, fun k k' h => ?_⟩
  · have := hval k
    rw [along_ix3, along_ix3] at this
    exact this
  · have := hmono k k' h
    rw [along_ix3, along_ix3] at this
    exact this

/-- The sorted keys of one query. If the keys along the last axis are "the position where marked, 4096 where not", the
    array sorted along that axis lists the marked positions in increasing order and then 4096. -/
theorem sort_keys_ix (K : S8x4096x4096.Idx → BitVec 32) (b : Fin 8) (s : Fin 4096) (v : Fin 4096 → Bool)
    (hkey : ∀ n, K (ix3 b s n) = if v n = true then BitVec.ofNat 32 n.val else 4096#32) (k : Fin 4096) :
    Host.sort S8x4096x4096 2 comparator_i32_d2 K (ix3 b s k)
      = BitVec.ofNat 32 (((TopK.sel v).map Fin.val).getD k.val 4096) := by
  obtain ⟨σ, hσ, hval, hmono⟩ := sort_fiber_ix3 K b s
  exact sorted_keys v (fun n => K (ix3 b s n))
    (fun k => Host.sort S8x4096x4096 2 comparator_i32_d2 K (ix3 b s k)) hkey σ hσ hval hmono k

/-- The sorted keys of query `s` of batch `b`: the in-ball indices in increasing order, then the sentinel 4096. -/
theorem val_main_v18_ix (X Y : FVec Ideal S8x4096x3 .f32) (b : Fin 8) (s k : Fin 4096) :
    val_main_v18 (F := Ideal) X Y (ix3 b s k)
      = BitVec.ofNat 32 (((Knn.ballList rho (qpt X b s) (spts Y b)).map Fin.val).getD k.val 4096) := by
  unfold val_main_v18
  refine sort_keys_ix _ b s (fun n => decide (¬ rho < Knn.sqExpand (qpt X b s) (spts Y b n))) (fun n => ?_) k
  rw [val_main_v17_ix]
  by_cases h : rho < Knn.sqExpand (qpt X b s) (spts Y b n)
  · rw [if_pos h, if_neg (by simp [h])]
  · rw [if_neg h, if_pos (by simp [h])]

/-- The first 16 sorted keys of query `s` of batch `b`. -/
theorem val_main_v19_ix (X Y : FVec Ideal S8x4096x3 .f32) (b : Fin 8) (s : Fin 4096) (k : Fin 16) :
    val_main_v19 (F := Ideal) X Y (ix3 b s k)
      = BitVec.ofNat 32 (((Knn.ballList rho (qpt X b s) (spts Y b)).map Fin.val).getD k.val 4096) := by
  have hidx : idx_main_v19 (ix3 b s k) = ix3 b s (Fin.castLE (by decide) k : Fin 4096) :=
    funext fun a => Fin.ext (by match a with | ⟨0, _⟩ => rfl | ⟨1, _⟩ => rfl | ⟨2, _⟩ => rfl)
  rw [val_main_v19_apply, hidx, val_main_v18_ix]
  rfl

/-- The replacement of a sentinel: the first sorted key of the query. -/
theorem val_main_call2_v0_ix (X Y : FVec Ideal S8x4096x3 .f32) (b : Fin 8) (s : Fin 4096) (k : Fin 16) :
    val_main_call2_v0 (F := Ideal) X Y (ix3 b s k)
      = BitVec.ofNat 32 (((Knn.ballList rho (qpt X b s) (spts Y b)).map Fin.val).getD 0 4096) := by
  have hidx : idx_main_v20 (idx_main_call2_v0 (ix3 b s k)) = ix3 b s (0 : Fin 16) :=
    funext fun a => Fin.ext (by match a with | ⟨0, _⟩ => rfl | ⟨1, _⟩ => rfl | ⟨2, _⟩ => rfl)
  rw [val_main_call2_v0_apply, val_main_v20_apply, hidx, val_main_v19_ix]
  rfl

/-- Entry `k` of the reference's selected indices for query `s` of batch `b`. -/
theorem val_main_v25_ix (X Y : FVec Ideal S8x4096x3 .f32) (b : Fin 8) (s : Fin 4096) (k : Fin 16) :
    val_main_v25 (F := Ideal) X Y (ix3 b s k)
      = BitVec.ofNat 32 (Knn.pickIdx (Knn.ballList rho (qpt X b s) (spts Y b)) k).val := by
  rw [val_main_v25_apply, val_main_v24_apply, val_main_c_4_apply, val_main_v23_apply, val_main_v22_apply,
    val_main_v21_apply, val_main_c_3_apply, val_main_call2_v0_ix, val_main_v19_ix]
  exact pick_word _ k

end Cert.ReferenceIdeal.Knn

end
-- ==== Proof.RefVal.lean ====
/-
  The reference's value from its selected indices. Whatever in-range indices `I k` the index array holds for a query,
  the reference gathers the searched points at those indices, subtracts the query, sums the 16 differences coordinate
  by coordinate, and takes the Euclidean norm.
-/
import proofs.«166340_j12506944766668_2_alg».proof.Proof.RefGen
import proofs.«166340_j12506944766668_2_alg».proof.Proof.KnnSpec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.Knn

open Cert.ReferenceIdeal Cert.ReferenceIdeal.Gen Cert.ReferenceIdeal.ReadP
open Idealize.ShloMosaic Idealize.ShloMosaic.ValueIdx Idealize.ShloMosaic.TcCoe Idealize.SL.Sem Idealize.ShloMosaic.StableHlo

/-- A word below 2³¹ is not less than zero when compared signed, so a select on that comparison takes its second
    operand. -/
theorem select_slt_zero {α : Type} (w : BitVec 32) (hw : w.toNat < 2 ^ 31) (a b : α) :
    Scalar.select (IntOp.cmpi .slt w 0#32) a b = b := by
  unfold Scalar.select
  rw [if_neg]
  intro h
  have h' := (Predicate.slt_iff_toNat hw (by decide)).mp h
  simp at h'

/-- The word of a number below 2³¹ is below 2³¹. -/
theorem toNat_ofNat_lt (n : Nat) (hn : n < 2 ^ 31) : (BitVec.ofNat 32 n).toNat < 2 ^ 31 := by
  rw [BitVec.toNat_ofNat]; omega

local notation "GD" => gather_S8x4096x3_S8x4096x16x2_S8x4096x16x3_3_01_n_n_01_3_113

/-- The gather of the searched points at a pair of start words (batch, point): when both words are the words of
    in-range numbers B and N, result element (b, s, k, c) is the searched point (B, N) at coordinate c. -/
theorem gather_pair_apply {α : Type} (x : S8x4096x3.Idx → α) (idx : IVec S8x4096x16x2 32)
    (b : Fin 8) (s : Fin 4096) (k : Fin 16) (c : Fin 3) (B : Fin 8) (N : Fin 4096)
    (h0 : idx (ix4 b s k (0 : Fin 2)) = BitVec.ofNat 32 B.val) (h1 : idx (ix4 b s k (1 : Fin 2)) = BitVec.ofNat 32 N.val) :
    Host.gather GD x idx (ix4 b s k c) = x (ix3 B N c) := by
  unfold Host.gather
  congr 1
  funext a
  refine Fin.ext ?_
  have hB := B.isLt
  have hN := N.isLt
  -- the start-indices index read for each of the two components of the start index
  have hs0 : GatherDims.siIdx GD (ix4 b s k c) ⟨0, by decide⟩ = ix4 b s k (0 : Fin 2) := by
    funext e; refine Fin.ext ?_
    match e with
    | ⟨0, _⟩ => rfl
    | ⟨1, _⟩ => rfl
    | ⟨2, _⟩ => rfl
    | ⟨3, _⟩ => rfl
  have hs1 : GatherDims.siIdx GD (ix4 b s k c) ⟨1, by decide⟩ = ix4 b s k (1 : Fin 2) := by
    funext e; refine Fin.ext ?_
    match e with
    | ⟨0, _⟩ => rfl
    | ⟨1, _⟩ => rfl
    | ⟨2, _⟩ => rfl
    | ⟨3, _⟩ => rfl
  match a with
  | ⟨0, _⟩ =>
    show min (idx (GatherDims.siIdx GD (ix4 b s k c) ⟨0, by decide⟩)).toInt.toNat (8 - 1) + 0 + 0 = B.val
    rw [hs0, h0, Predicate.toInt_ofNat_small _ (by omega), Int.toNat_natCast]
    omega
  | ⟨1, _⟩ =>
    show min (idx (GatherDims.siIdx GD (ix4 b s k c) ⟨1, by decide⟩)).toInt.toNat (4096 - 1) + 0 + 0 = N.val
    rw [hs1, h1, Predicate.toInt_ofNat_small _ (by omega), Int.toNat_natCast]
    omega
  | ⟨2, _⟩ =>
    show 0 + 0 + c.val = c.val
    omega

/-! ## The two start words of the gather -/

/-- The batch word: the batch number, a number below 8, is not negative, so the wrapped form is the number itself. -/
theorem v32_word (i : S8x1x1.Idx) : val_main_v32 (F := Ideal) i = BitVec.ofNat 32 (i 0).val := by
  have hi : (i 0).val < 8 := (i 0).isLt
  rw [val_main_v32_apply, val_main_v29_apply, val_main_v28_apply, val_main_c_5_apply, val_main_v27_apply,
    val_main_v26_apply]
  exact select_slt_zero _ (toNat_ofNat_lt _ (by show (i 0).val < 2 ^ 31; omega)) _ _

/-- The batch word broadcast along the queries and the selected entries, with a trailing unit axis. -/
theorem v39_ix (b : Fin 8) (s : Fin 4096) (k : Fin 16) :
    val_main_v39 (F := Ideal) (ix4 b s k (0 : Fin 1)) = BitVec.ofNat 32 b.val := by
  rw [val_main_v39_apply, val_main_v38_apply, v32_word]

/-- An index word that is the word of a number below 4096 is not negative, so the wrapped form is the word itself. -/
theorem v37_word (X Y : FVec Ideal S8x4096x3 .f32) (i : S8x4096x16.Idx) (n : Nat) (hn : n < 4096)
    (h : val_main_v25 (F := Ideal) X Y i = BitVec.ofNat 32 n) :
    val_main_v37 (F := Ideal) X Y i = BitVec.ofNat 32 n := by
  rw [val_main_v37_apply, val_main_v34_apply, val_main_v33_apply, val_main_c_7_apply, h]
  exact select_slt_zero _ (toNat_ofNat_lt _ (by omega)) _ _

section
variable (X Y : FVec Ideal S8x4096x3 .f32) (b : Fin 8) (s : Fin 4096) (I : Fin 16 → Fin 4096)
  (hI : ∀ k : Fin 16, val_main_v25 (F := Ideal) X Y (ix3 b s k) = BitVec.ofNat 32 (I k).val)
include hI

/-- The index word with a trailing unit axis. -/
theorem v40_ix (k : Fin 16) :
    val_main_v40 (F := Ideal) X Y (ix4 b s k (0 : Fin 1)) = BitVec.ofNat 32 (I k).val := by
  rw [val_main_v40_apply]
  refine v37_word X Y _ _ (I k).isLt ?_
  have hidx : idx_main_v40 (ix4 b s k (0 : Fin 1)) = ix3 b s k :=
    funext fun a => Fin.ext (by match a with | ⟨0, _⟩ => rfl | ⟨1, _⟩ => rfl | ⟨2, _⟩ => rfl)
  rw [hidx]
  exact hI k

omit hI in
/-- The joined start index at its first component is the batch word. -/
theorem v41_ix0 (k : Fin 16) :
    val_main_v41 (F := Ideal) X Y (ix4 b s k (0 : Fin 2)) = val_main_v39 (F := Ideal) (ix4 b s k (0 : Fin 1)) := by
  unfold val_main_v41
  exact concatenate_pair_apply_left (t := S8x4096x16x2) (s₁ := S8x4096x16x1) (s₂ := S8x4096x16x1) (3 : Fin 4) _ _ _ (ix4 b s k (0 : Fin 2)) rfl (ix4 b s k (0 : Fin 1))
    (fun e => match e with | ⟨0, _⟩ => rfl | ⟨1, _⟩ => rfl | ⟨2, _⟩ => rfl | ⟨3, _⟩ => rfl)

omit hI in
/-- The joined start index at its second component is the index word. -/
theorem v41_ix1 (k : Fin 16) :
    val_main_v41 (F := Ideal) X Y (ix4 b s k (1 : Fin 2)) = val_main_v40 (F := Ideal) X Y (ix4 b s k (0 : Fin 1)) := by
  unfold val_main_v41
  exact concatenate_pair_apply_right (t := S8x4096x16x2) (s₁ := S8x4096x16x1) (s₂ := S8x4096x16x1) (3 : Fin 4) _ _ _ (ix4 b s k (1 : Fin 2)) rfl rfl (ix4 b s k (0 : Fin 1))
    (fun e => match e with
      | ⟨0, _⟩ => fun _ => rfl
      | ⟨1, _⟩ => fun _ => rfl
      | ⟨2, _⟩ => fun _ => rfl
      | ⟨3, _⟩ => fun h => absurd rfl h)
    rfl

/-! ## The gathered points, the differences, the two sums and the norm -/

/-- The gathered point: the searched point of the batch at the selected index. -/
theorem v42_ix (k : Fin 16) (c : Fin 3) :
    val_main_v42 (F := Ideal) X Y (ix4 b s k c) = Y (ix3 b (I k) c) := by
  unfold val_main_v42
  exact gather_pair_apply Y _ b s k c b (I k) (by rw [v41_ix0, v39_ix]) (by rw [v41_ix1, v40_ix X Y b s I hI])

omit hI in
/-- The query broadcast along the selected entries. -/
theorem v44_ix (k : Fin 16) (c : Fin 3) : val_main_v44 (F := Ideal) X (ix4 b s k c) = X (ix3 b s c) := by
  rw [val_main_v44_apply, val_main_v43_apply]
  exact congrArg X (funext fun a => Fin.ext (by match a with | ⟨0, _⟩ => rfl | ⟨1, _⟩ => rfl | ⟨2, _⟩ => rfl))

/-- The 16 differences summed, coordinate by coordinate. -/
theorem v46_ix (c : Fin 3) :
    val_main_v46 (F := Ideal) X Y (ix3 b s c) = ∑ k : Fin 16, (Y (ix3 b (I k) c) - X (ix3 b s c)) := by
  rw [val_main_v46_apply, val_main_cst_9_apply, Ideal.ofBits_def, Ideal.ofBits_zero_f32, zero_add]
  refine Finset.sum_congr rfl fun k _ => ?_
  have hidx : idx_main_v46 (ix3 b s c) k = ix4 b s k c :=
    funext fun a => Fin.ext (by match a with | ⟨0, _⟩ => rfl | ⟨1, _⟩ => rfl | ⟨2, _⟩ => rfl | ⟨3, _⟩ => rfl)
  rw [hidx, val_main_v45_apply, v42_ix X Y b s I hI, v44_ix, Ideal.subf_def]

end

/-- The distance of query `s` of batch `b` from the 16 selected indices `I`. -/
theorem val_main_v49_ix (X Y : FVec Ideal S8x4096x3 .f32) (b : Fin 8) (s : Fin 4096) (I : Fin 16 → Fin 4096)
    (hI : ∀ k : Fin 16, val_main_v25 (F := Ideal) X Y (ix3 b s k) = BitVec.ofNat 32 (I k).val) :
    val_main_v49 (F := Ideal) X Y (ix2 b s)
      = Ideal.sqrt (∑ c : Fin 3, (∑ k : Fin 16, (Y (ix3 b (I k) c) - X (ix3 b s c))) * (∑ k : Fin 16, (Y (ix3 b (I k) c) - X (ix3 b s c)))) := by
  rw [val_main_v49_apply, Ideal.hostUnary_sqrt_def, val_main_v48_apply, val_main_cst_10_apply, Ideal.ofBits_def,
    Ideal.ofBits_zero_f32, zero_add]
  congr 1
  refine Finset.sum_congr rfl fun c _ => ?_
  have hidx : idx_main_v48 (ix2 b s) c = ix3 b s c :=
    funext fun a => Fin.ext (by match a with | ⟨0, _⟩ => rfl | ⟨1, _⟩ => rfl | ⟨2, _⟩ => rfl)
  rw [hidx, val_main_v47_apply, Ideal.mulf_def, v46_ix X Y b s I hI]

end Cert.ReferenceIdeal.Knn

end
-- ==== Proof.KnnBridge.lean ====
/-
  On real inputs the accumulating form and the selecting form of the ball query have the same value.
  The squared distance expanded equals the sum of squared differences (so both forms see one ball); the running count
  of the accumulating form is the rank of a marked position; and the 16 selected points sum to the first 16 in-ball
  points padded with the first one, or to 16 copies of the last searched point when the ball is empty.
-/
import proofs.«166340_j12506944766668_2_alg».proof.Proof.KnnSpec
import proofs.«166340_j12506944766668_2_alg».proof.Proof.LibTopK
import Mathlib.Data.EReal.Basic
import Mathlib.Data.EReal.Operations
import Mathlib.Data.EReal.Inv
import Mathlib.Data.Real.Basic
import Mathlib.Algebra.BigOperators.Fin
import Mathlib.Algebra.BigOperators.Ring.Finset
import Mathlib.Tactic.Ring
import Mathlib.Tactic.NormNum
import Mathlib.Tactic.Linarith

noncomputable section

namespace Knn

/-- The coercion of reals into extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A numeral of the extended reals is the coercion of the same real numeral. -/
theorem coe_ofNat' (n : ℕ) [n.AtLeastTwo] : ((OfNat.ofNat n : ℝ) : EReal) = OfNat.ofNat n := by
  rw [← Nat.cast_ofNat (R := ℝ), EReal.coe_natCast, Nat.cast_ofNat]

/-- The squared distance of two real points. -/
def dist2 (x p : Fin 3 → ℝ) : ℝ :=
  (x 0 - p 0) * (x 0 - p 0) + (x 1 - p 1) * (x 1 - p 1) + (x 2 - p 2) * (x 2 - p 2)

theorem sqDiff_coe (x p : Fin 3 → ℝ) :
    sqDiff (fun c => ((x c : ℝ) : EReal)) (fun c => ((p c : ℝ) : EReal)) = ((dist2 x p : ℝ) : EReal) := by
  simp only [sqDiff, dist2, EReal.coe_add, EReal.coe_mul, EReal.coe_sub]

theorem sqExpand_coe (x p : Fin 3 → ℝ) :
    sqExpand (fun c => ((x c : ℝ) : EReal)) (fun c => ((p c : ℝ) : EReal)) = ((dist2 x p : ℝ) : EReal) := by
  simp only [sqExpand, Fin.sum_univ_three, ← coe_ofNat', ← EReal.coe_mul, ← EReal.coe_add, ← EReal.coe_sub]
  rw [EReal.coe_eq_coe_iff]
  simp only [dist2]
  ring

/-- The ball as a marking of the searched positions. -/
def mark (ρ : EReal) (x : Fin 3 → ℝ) (y : Fin 4096 → Fin 3 → ℝ) (n : Fin 4096) : Bool :=
  decide (((dist2 x (y n) : ℝ) : EReal) ≤ ρ)

section
variable (ρ : EReal) (x : Fin 3 → ℝ) (y : Fin 4096 → Fin 3 → ℝ)

local notation "X" => (fun c => ((x c : ℝ) : EReal))
local notation "Y" => (fun n c => ((y n c : ℝ) : EReal))

theorem ballList_eq : ballList ρ X Y = TopK.sel (mark ρ x y) := by
  unfold ballList TopK.sel
  congr 1
  funext n
  simp only [mark, sqExpand_coe, not_lt]

theorem inBall_eq (n : Fin 4096) : inBall ρ X Y n = if mark ρ x y n = true then 1 else 0 := by
  simp only [inBall, ind, sqDiff_coe, mark, decide_eq_true_eq]

theorem runCnt_eq (n : Fin 4096) : runCnt ρ X Y n = ((TopK.rank (mark ρ x y) n : ℕ) : EReal) := by
  simp only [runCnt, inBall_eq, ← ite_and, Finset.sum_boole, TopK.rank]

theorem ballCnt_eq : ballCnt ρ X Y = ((TopK.count (mark ρ x y) : ℕ) : EReal) := by
  simp only [ballCnt, inBall_eq, Finset.sum_boole, TopK.count]

end

section
variable (ρ : EReal) (x : Fin 3 → ℝ) (y : Fin 4096 → Fin 3 → ℝ)

local notation "X" => (fun c => ((x c : ℝ) : EReal))
local notation "Y" => (fun n c => ((y n c : ℝ) : EReal))
local notation "V" => mark ρ x y

/-- The running count is at most 16 exactly when the rank is. -/
theorem runCnt_le_iff (n : Fin 4096) : runCnt ρ X Y n ≤ 16 ↔ TopK.rank V n ≤ 16 := by
  rw [runCnt_eq, ← Nat.cast_ofNat (R := EReal), EReal.natCast_le_iff]

/-- The running count is 1 exactly when the rank is. -/
theorem runCnt_eq_one_iff (n : Fin 4096) : runCnt ρ X Y n = 1 ↔ TopK.rank V n = 1 := by
  rw [runCnt_eq, ← Nat.cast_one (R := EReal), EReal.natCast_eq_iff]

/-- The ball is empty exactly when nothing is marked. -/
theorem ballCnt_eq_zero_iff : ballCnt ρ X Y = 0 ↔ TopK.count V = 0 := by
  rw [ballCnt_eq, ← Nat.cast_zero (R := EReal), EReal.natCast_eq_iff]

/-- The number of padding terms. -/
theorem pad_eq : max (16 - ballCnt ρ X Y) 0 = (((16 - TopK.count V : ℕ) : ℝ) : EReal) := by
  rw [ballCnt_eq, ← coe_ofNat', ← EReal.coe_natCast, ← EReal.coe_sub, ← EReal.coe_zero,
    ← EReal.coe_strictMono.monotone.map_max, EReal.coe_eq_coe_iff]
  rcases le_total (TopK.count V) 16 with h | h
  · rw [Nat.cast_sub h, max_eq_left]
    · norm_num
    · have : ((TopK.count V : ℕ) : ℝ) ≤ 16 := by exact_mod_cast h
      linarith
  · rw [Nat.sub_eq_zero_of_le h, max_eq_right]
    · norm_num
    · have : (16 : ℝ) ≤ ((TopK.count V : ℕ) : ℝ) := by exact_mod_cast h
      linarith

theorem sumFirst16_eq (c : Fin 3) :
    sumFirst16 ρ X Y c = ((∑ n, if V n = true ∧ TopK.rank V n ≤ 16 then y n c else 0 : ℝ) : EReal) := by
  rw [coe_sum]
  unfold sumFirst16
  refine Finset.sum_congr rfl fun n _ => ?_
  simp only [inBall_eq, ind, runCnt_le_iff]
  by_cases h1 : V n = true <;> by_cases h2 : TopK.rank V n ≤ 16 <;> simp [h1, h2]

theorem firstPt_eq (c : Fin 3) :
    firstPt ρ X Y c = ((∑ n, if V n = true ∧ TopK.rank V n = 1 then y n c else 0 : ℝ) : EReal) := by
  rw [coe_sum]
  unfold firstPt
  refine Finset.sum_congr rfl fun n _ => ?_
  simp only [inBall_eq, ind, runCnt_eq_one_iff]
  by_cases h1 : V n = true <;> by_cases h2 : TopK.rank V n = 1 <;> simp [h1, h2]

/-- With nothing marked, no position is marked. -/
theorem mark_false_of_count_eq_zero (h : TopK.count V = 0) (n : Fin 4096) : V n = false := by
  unfold TopK.count at h
  rw [Finset.card_eq_zero, Finset.filter_eq_empty_iff] at h
  simpa using h (Finset.mem_univ n)

theorem paddedSum_eq (c : Fin 3) :
    paddedSum ρ X Y (fun c => ((y ⟨4095, by decide⟩ c : ℝ) : EReal)) c
      = (((∑ n, if V n = true ∧ TopK.rank V n ≤ 16 then y n c else 0)
          + ((16 - TopK.count V : ℕ) : ℝ) * (if TopK.count V = 0 then y ⟨4095, by decide⟩ c
              else ∑ n, if V n = true ∧ TopK.rank V n = 1 then y n c else 0) : ℝ) : EReal) := by
  unfold paddedSum
  rw [sumFirst16_eq, firstPt_eq, pad_eq]
  simp only [ind, ballCnt_eq_zero_iff]
  by_cases h : TopK.count V = 0
  · have h0 : (∑ n, if V n = true ∧ TopK.rank V n = 1 then y n c else 0 : ℝ) = 0 := by
      refine Finset.sum_eq_zero fun n _ => ?_
      simp [mark_false_of_count_eq_zero ρ x y h n]
    simp only [h, if_true, h0, one_mul, EReal.coe_zero, zero_add]
    rw [← EReal.coe_mul, ← EReal.coe_add]
  · simp only [h, if_false, zero_mul, add_zero]
    rw [← EReal.coe_mul, ← EReal.coe_add]

theorem selSum_eq (c : Fin 3) :
    selSum ρ X Y c
      = (((∑ k : Fin 16, y ((TopK.sel V).getD k.val ((TopK.sel V).headD ⟨4095, by decide⟩)) c) - 16 * x c : ℝ) : EReal) := by
  unfold selSum
  rw [ballList_eq]
  simp only [pickIdx, ← EReal.coe_sub, ← coe_sum]
  rw [EReal.coe_eq_coe_iff, Finset.sum_sub_distrib]
  simp

/-- Coordinate by coordinate the padded sum less 16 times the query is the selected sum. -/
theorem padded_sub_eq_selSum (c : Fin 3) :
    paddedSum ρ X Y (fun c => ((y ⟨4095, by decide⟩ c : ℝ) : EReal)) c - 16 * X c = selSum ρ X Y c := by
  rw [paddedSum_eq, selSum_eq, TopK.sum_getD V 16 (fun n => y n c) ⟨4095, by decide⟩,
    ← coe_ofNat', ← EReal.coe_mul, ← EReal.coe_sub]

end

/-- Both forms agree on real inputs, the fallback point being the last searched point. -/
theorem accValue_eq_selValue (ρ : EReal) (x : Fin 3 → ℝ) (y : Fin 4096 → Fin 3 → ℝ) :
    accValue ρ (fun c => ((x c : ℝ) : EReal)) (fun n c => ((y n c : ℝ) : EReal)) (fun c => ((y ⟨4095, by decide⟩ c : ℝ) : EReal))
      = selValue ρ (fun c => ((x c : ℝ) : EReal)) (fun n c => ((y n c : ℝ) : EReal)) := by
  unfold accValue selValue
  congr 1
  refine Finset.sum_congr rfl fun c _ => ?_
  rw [padded_sub_eq_selSum]

end Knn

end
-- ==== Proof.Finite.lean ====
/-
  Under the precondition every entry of both inputs is a real number: the precondition conjoins, over all entries, the
  test |x| < +∞, and an extended real whose absolute value is below +∞ is neither infinity.
-/
import proofs.«166340_j12506944766668_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The pattern of +∞ is the top extended real. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 only for `true`. -/
theorem bool_of_ofBool_one {b : Bool} (h : BitVec.ofBool b = 1#1) : b = true := by
  cases b
  · exact absurd h (by decide)
  · rfl

/-- The ordered "less than" test at the exact instance came out 1: the strict inequality holds. -/
theorem lt_of_cmp_olt {x y : EReal} (h : Ideal.cmp .olt x y = 1#1) : x < y :=
  of_decide_eq_true (bool_of_ofBool_one h)

instance : Subsingleton S_.Idx := ⟨fun a b => funext fun d => d.elim0⟩

/-- The precondition makes every entry of both arrays a real. -/
theorem reals_of_pre [Cert.Pre_finite_inputs.Facts] (a b : FVec Ideal S8x4096x3 .f32)
    (h : Cert.Pre_finite_inputs.fn (F := Ideal) a b = fun _ => 1#1) :
    (∀ i, ∃ r : ℝ, a i = (r : EReal)) ∧ (∀ i, ∃ r : ℝ, b i = (r : EReal)) := by
  have h0 := congrFun h ValueIdx.ix0
  dsimp only [Cert.Pre_finite_inputs.fn] at h0
  obtain ⟨ha, hb⟩ := IntOp.andi_eq_one.mp h0
  constructor
  · intro i
    have e := Host.reduce_andi_all _ _ _ _ _ ha i
    have e' : Ideal.cmp .olt (max (a i) (-(a i))) (Ideal.ofBits .f32 0x7F800000#32) = 1#1 := e
    rw [ofBits_inf] at e'
    exact real_of_abs_lt_top _ (lt_of_cmp_olt e')
  · intro i
    have e := Host.reduce_andi_all _ _ _ _ _ hb i
    have e' : Ideal.cmp .olt (max (b i) (-(b i))) (Ideal.ofBits .f32 0x7F800000#32) = 1#1 := e
    rw [ofBits_inf] at e'
    exact real_of_abs_lt_top _ (lt_of_cmp_olt e')

end Cert.Finite

end
-- ==== Proof.Glue.lean ====
/-
  The two programs compute one number. On real inputs the reference's distance of query `s` of batch `b` (the selecting
  form of the ball query) is the kernel's (the accumulating form, with the batch's last searched point as the fallback),
  so the kernel's distance array with its unit axis dropped is the reference's distance array, and both programs end by
  applying the same scaled mean to it.
-/
import proofs.«166340_j12506944766668_2_alg».proof.Proof.KArray
import proofs.«166340_j12506944766668_2_alg».proof.Proof.RefIdx
import proofs.«166340_j12506944766668_2_alg».proof.Proof.RefVal
import proofs.«166340_j12506944766668_2_alg».proof.Proof.KnnBridge
import proofs.«166340_j12506944766668_2_alg».proof.Proof.Finite

set_option synthInstance.maxSize 4096

noncomputable section

namespace Cert.Glue

open Idealize.ShloMosaic Idealize.ShloMosaic.ValueIdx
open Cert.ReferenceIdeal.Knn (rho qpt spts)

/-- Dropping the trailing unit axis of an 8 × 4096 × 1 array reads it at (b, s, 0). -/
theorem dropUnit_apply (A : Cert.KernelIdeal.S8x4096x1.Idx → EReal) (b : Fin 8) (s : Fin 4096) :
    shapeCast Cert.KernelIdeal.S8x4096 A Cert.KernelIdeal.Gen.shapeCasts_S8x4096x1_S8x4096 (ix2 b s) = A (ix3 b s (0 : Fin 1)) :=
  shapeCast_apply A _ (ix2 b s) (ix3 b s (0 : Fin 1)) (by
    rw [Shape.rowMajor_val_three, Shape.rowMajor_val_two]
    show (b.val * 4096 + s.val) * 1 + 0 = b.val * 4096 + s.val
    omega)

/-- On real inputs the reference's distance array is the kernel's with the unit axis dropped. -/
theorem dist_eq (X Y : FVec Ideal Cert.ReferenceIdeal.S8x4096x3 .f32)
    (hX : ∀ i, ∃ r : ℝ, X i = (r : EReal)) (hY : ∀ i, ∃ r : ℝ, Y i = (r : EReal)) :
    Cert.ReferenceIdeal.ReadP.val_main_v49 (F := Ideal) X Y
      = shapeCast Cert.KernelIdeal.S8x4096 (Cert.KernelIdeal.KArr.distArr X Y) Cert.KernelIdeal.Gen.shapeCasts_S8x4096x1_S8x4096 := by
  funext i
  obtain ⟨b, s, rfl⟩ : ∃ (b : Fin 8) (s : Fin 4096), i = ix2 b s := ⟨i 0, i 1, eq_ix2 i⟩
  rw [dropUnit_apply,
    Cert.ReferenceIdeal.Knn.val_main_v49_ix X Y b s (fun k => Knn.pickIdx (Knn.ballList rho (qpt X b s) (spts Y b)) k)
      (fun k => Cert.ReferenceIdeal.Knn.val_main_v25_ix X Y b s k)]
  show Knn.selValue rho (qpt X b s) (spts Y b)
    = Knn.accValue rho (qpt X b s) (spts Y b) (fun c => spts Y b (⟨4095, by decide⟩ : Fin 4096) c)
  choose x hx using hX
  choose y hy using hY
  have hq : qpt X b s = fun c => ((x (ix3 b s c) : ℝ) : EReal) := funext fun c => hx _
  have hs : spts Y b = fun n c => ((y (ix3 b n c) : ℝ) : EReal) := funext fun n => funext fun c => hy _
  rw [hq, hs]
  exact (Knn.accValue_eq_selValue rho (fun c => x (ix3 b s c)) (fun n c => y (ix3 b n c))).symm

/-- On real inputs the reference's result is the scaled mean of the kernel's distance array. -/
theorem result_eq (X Y : FVec Ideal Cert.ReferenceIdeal.S8x4096x3 .f32)
    (hX : ∀ i, ∃ r : ℝ, X i = (r : EReal)) (hY : ∀ i, ∃ r : ℝ, Y i = (r : EReal)) :
    Cert.ReferenceIdeal.ReadP.val_main_v53 (F := Ideal) X Y
      = Cert.KernelIdeal.KArr.meanScaled
          (shapeCast Cert.KernelIdeal.S8x4096 (Cert.KernelIdeal.KArr.distArr X Y) Cert.KernelIdeal.Gen.shapeCasts_S8x4096x1_S8x4096) := by
  rw [← dist_eq X Y hX hY]
  rfl

end Cert.Glue

end
-- ==== Proof.lean ====
/-
  The certificate. The kernel computes, for 8 batches of 4096 query points against 4096 searched points, the ball query
  "the first 16 searched points within the radius, in index order, padded with the first of them (or with the last
  searched point when there is none)", sums the 16 selected points' differences to the query, takes the norm, and
  averages. It does so by an accumulation over 32 chunks of 128 points with a running count; the reference does so by
  sorting keyed indices and gathering. On finite inputs, over the extended reals, both are one function:
  the frames are the generated ones, their body proof shortened (the reference's frame from its run), the idealization rewrote nothing, and the
  two results are the same scaled mean of the same distance array.
-/
import proofs.«166340_j12506944766668_2_alg».proof.Defs
import proofs.«166340_j12506944766668_2_alg».proof.Proof.Gen.Kernel
import proofs.«166340_j12506944766668_2_alg».proof.Proof.Gen.Kernel.Skeleton
import proofs.«166340_j12506944766668_2_alg».proof.Proof.Gen.Kernel.Launch
import proofs.«166340_j12506944766668_2_alg».proof.Proof.Gen.Kernel.Points
import proofs.«166340_j12506944766668_2_alg».proof.Proof.FrameK
import proofs.«166340_j12506944766668_2_alg».proof.Proof.Gen.KernelIdeal
import proofs.«166340_j12506944766668_2_alg».proof.Proof.Gen.KernelIdeal.Skeleton
import proofs.«166340_j12506944766668_2_alg».proof.Proof.Gen.KernelIdeal.Launch
import proofs.«166340_j12506944766668_2_alg».proof.Proof.Gen.KernelIdeal.Points
import proofs.«166340_j12506944766668_2_alg».proof.Proof.FrameKI
import proofs.«166340_j12506944766668_2_alg».proof.Proof.Gen.ReferenceIdeal
import proofs.«166340_j12506944766668_2_alg».proof.Proof.Gen.Pre_finite_inputs
import proofs.«166340_j12506944766668_2_alg».proof.Proof.Glue
import Idealize.ShloMosaic.Adequacy
import Idealize.ShloMosaic.Init

noncomputable section

namespace Cert.Proof

open Idealize.ShloMosaic Idealize.SL.Sem

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, finite by the precondition, both programs end with the scaled mean of the
    kernel's distance array. -/
theorem algebraic : Cert.algebraic_KernelIdeal_ReferenceIdeal := by
  intro m ρ m' ρ' hpre hagree
  refine ⟨_, Cert.KernelIdeal.KArr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, (hagree c).1, (hagree c).2]
  obtain ⟨hX, hY⟩ := Cert.Finite.reals_of_pre _ _ (hpre c)
  exact Cert.Glue.result_eq _ _ hX hY

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ, fun m ρ _ => Cert.KernelIdeal.GenP.frame m ρ, frame_ri, trivial, algebraic⟩

end Cert.Proof

end
